-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S32x8192x5 : Shape := ⟨3, ![32, 8192, 5]⟩
abbrev S5x256 : Shape := ⟨2, ![5, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S32x8192x5 : S_.BroadcastsInDim S32x8192x5 (![] : Fin 0 → Fin S32x8192x5.rank)
  reducesTo_S32x8192x5_S_d0_1_2 : S32x8192x5.ReducesTo [0, 1, 2] S_
  bcast_S_S5x256 : S_.BroadcastsInDim S5x256 (![] : Fin 0 → Fin S5x256.rank)
  reducesTo_S5x256_S_d0_1 : S5x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x1 .f32) (main_arg8 : FVec F S1 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x8192 .f32) (main_arg1 : FVec F S32x8192 .f32) (main_arg2 : FVec F S32x8192x5 .f32) (main_arg3 : FVec F S5x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S32x8192 .f32 := Host.absf main_arg1
  let main_cst_0 : FVec F S_ .f32 := constant S_ .f32 0x7F800000#32
  let main_v5 : FVec F S32x8192 .f32 := broadcastInDim S32x8192 ![] bcast_S_S32x8192 main_cst_0
  let main_v6 : IVec S32x8192 1 := cmpf .olt main_v4 main_v5
  let main_c_1 : IVec S_ 1 := constantI S_ 1 1#1
  let main_v7 : IVec S_ 1 := (fun x v => Host.reduce IntOp.andi x v reducesTo_S32x8192_S_d0_1 h_S_) main_v6 main_c_1
  let main_v8 : IVec S_ 1 := andi main_v3 main_v7
  let main_v9 : FVec F S32x8192x5 .f32 := Host.absf main_arg2
  let main_cst_2 : FVec F S_ .f32 := constant S_ .f32 0x7F800000#32
  let main_v10 : FVec F S32x8192x5 .f32 := broadcastInDim S32x8192x5 ![] bcast_S_S32x8192x5 main_cst_2
  let main_v11 : IVec S32x8192x5 1 := cmpf .olt main_v9 main_v10
  let main_c_3 : IVec S_ 1 := constantI S_ 1 1#1
  let main_v12 : IVec S_ 1 := (fun x v => Host.reduce IntOp.andi x v reducesTo_S32x8192x5_S_d0_1_2 h_S_) main_v11 main_c_3
  let main_v13 : IVec S_ 1 := andi main_v8 main_v12
  let main_v14 : FVec F S5x256 .f32 := Host.absf main_arg3
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg4 main_arg5 main_arg6 main_arg7 main_arg8 main_v13 main_v16
-- ==== Kernel.lean ====
abbrev S32x8192 : Shape := ⟨2, ![32, 8192]⟩
abbrev S32x8192x5 : Shape := ⟨3, ![32, 8192, 5]⟩
abbrev S5x256 : Shape := ⟨2, ![5, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S262144x5 : Shape := ⟨2, ![262144, 5]⟩
abbrev S262144 : Shape := ⟨1, ![262144]⟩
abbrev S256x5 : Shape := ⟨2, ![256, 5]⟩
abbrev S1x1 : Shape := ⟨2, ![1, 1]⟩
abbrev S2048x5 : Shape := ⟨2, ![2048, 5]⟩
abbrev S2048 : Shape := ⟨1, ![2048]⟩
abbrev S2048x256 : Shape := ⟨2, ![2048, 256]⟩
abbrev S1x256 : Shape := ⟨2, ![1, 256]⟩
abbrev S2048x1 : Shape := ⟨2, ![2048, 1]⟩
abbrev S1x2048 : Shape := ⟨2, ![1, 2048]⟩
abbrev S_ : Shape := ⟨0, ![]⟩

abbrev nBuf : Space → Nat
  | .hbm => 19
  | .vmem => 15
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S32x8192x5, .f32⟩
  | .hbm, ⟨3, _⟩ => ⟨S5x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S262144x5, .f32⟩
  | .hbm, ⟨10, _⟩ => ⟨S262144, .f32⟩
  | .hbm, ⟨11, _⟩ => ⟨S262144, .f32⟩
  | .hbm, ⟨12, _⟩ => ⟨S5x256, .bf16⟩
  | .hbm, ⟨13, _⟩ => ⟨S256x256, .bf16⟩
  | .hbm, ⟨14, _⟩ => ⟨S256x1, .bf16⟩
  | .hbm, ⟨15, _⟩ => ⟨S256x5, .bf16⟩
  | .hbm, ⟨16, _⟩ => ⟨S256x256, .bf16⟩
  | .hbm, ⟨17, _⟩ => ⟨S1x1, .f32⟩
  | .hbm, ⟨18, _⟩ => ⟨S_, .f32⟩
  | .local _ .vmem, ⟨0, _⟩ => ⟨S2048x5, .f32⟩
  | .local _ .vmem, ⟨1, _⟩ => ⟨S2048x5, .f32⟩
  | .local _ .vmem, ⟨2, _⟩ => ⟨S2048, .f32⟩
  | .local _ .vmem, ⟨3, _⟩ => ⟨S2048, .f32⟩
  | .local _ .vmem, ⟨4, _⟩ => ⟨S2048, .f32⟩
  | .local _ .vmem, ⟨5, _⟩ => ⟨S2048, .f32⟩
  | .local _ .vmem, ⟨6, _⟩ => ⟨S5x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x1, .bf16⟩
  | .local _ .vmem, ⟨11, _⟩ => ⟨S1, .f32⟩
  | .local _ .vmem, ⟨12, _⟩ => ⟨S256x5, .bf16⟩
  | .local _ .vmem, ⟨13, _⟩ => ⟨S256x256, .bf16⟩
  | .local _ .vmem, ⟨14, _⟩ => ⟨S1x1, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S32x8192x5_S262144x5 : S32x8192x5.ShapeCasts S262144x5
  shapeCasts_S32x8192_S262144 : S32x8192.ShapeCasts S262144
  bitsLt_bf16_f32 : FTy.bits .bf16 < FTy.bits .f32
  transposes_S5x256_S256x5_1_0 : S5x256.Transposes [1, 0] S256x5
  transposes_S256x256_S256x256_1_0 : S256x256.Transposes [1, 0] S256x256
  inb_S1x1_S1x1_0_0 : ∀ a, (![0, 0] : Fin 2 → Nat) a + S1x1.size a ≤ S1x1.size a
  h_S1x1 : 0 < S1x1.numel
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  inb_S5x256_S5x256_0_0 : ∀ a, (![0, 0] : Fin 2 → Nat) a + S5x256.size a ≤ S5x256.size a
  h_S5x256 : 0 < S5x256.numel
  shapeCasts_S5x256_S5x256 : S5x256.ShapeCasts S5x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S256_S256_0 : ∀ a, (![0] : Fin 1 → Nat) a + S256.size a ≤ S256.size a
  h_S256 : 0 < S256.numel
  inb_S1_S1_0 : ∀ a, (![0] : Fin 1 → Nat) a + S1.size a ≤ S1.size a
  h_S1 : 0 < S1.numel
  shapeCasts_S256_S1x256 : S256.ShapeCasts S1x256
  broadcasts_S1x256_S2048x256 : S1x256.Broadcasts S2048x256
  shapeCasts_S1_S1x1 : S1.ShapeCasts S1x1
  broadcasts_S1x1_S2048x1 : S1x1.Broadcasts S2048x1
  shapeCasts_S2048x1_S2048 : S2048x1.ShapeCasts S2048
  shapeCasts_S256x1_S256 : S256x1.ShapeCasts S256
  slices_S2048x5_o0_0_S2048x1 : S2048x5.Slices ![0, 0] S2048x1
  slices_S2048x5_o0_3_S2048x1 : S2048x5.Slices ![0, 3] S2048x1
  iota_S2048x5_d1_w32 : S2048x5.Iotas .tc 32 [1]
  slices_S2048x5_o0_2_S2048x1 : S2048x5.Slices ![0, 2] S2048x1
  slices_S2048x5_o0_4_S2048x1 : S2048x5.Slices ![0, 4] S2048x1
  shapeCasts_S2048_S1x2048 : S2048.ShapeCasts S1x2048
  reduces_S1x2048_S1 : S1x2048.Reduces [1] S1
  inpos_S1x1_p0_0 : ∀ a, (![0, 0] : Fin 2 → Nat) a < S1x1.size a
  inb_S2048_S2048_0 : ∀ a, (![0] : Fin 1 → Nat) a + S2048.size a ≤ S2048.size a
  h_S2048 : 0 < S2048.numel
  shapeCasts_S2048_S2048 : S2048.ShapeCasts S2048
  shapeCasts_S1x1_S1x1 : S1x1.ShapeCasts S1x1
  shapeCasts_S1x1_S_ : S1x1.ShapeCasts S_
  dot_S2048x5_S5x256_S2048x256_1_0_0_1_n_n_wf : DotDims.WF S2048x5 S5x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  dot_S2048x256_S256x5_S2048x5_1_0_0_1_n_n_wf : DotDims.WF S2048x256 S256x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S262144x5.size a
  hwx0_0 : ∀ i : grid0.Coords, EltTy.bits .f32 = 32 ∨ (Rect.block (s := S262144x5) S2048x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S262144.size a
  hwx0_1 : ∀ i : grid0.Coords, EltTy.bits .f32 = 32 ∨ (Rect.block (s := S262144) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S262144.size a
  hwx0_2 : ∀ i : grid0.Coords, EltTy.bits .f32 = 32 ∨ (Rect.block (s := S262144) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x256.size a ≤ S5x256.size a
  hwx0_3 : ∀ i : grid0.Coords, EltTy.bits .bf16 = 32 ∨ (Rect.block (s := S5x256) S5x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .bf16 = 32 ∨ (Rect.block (s := S256x1) S256x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x5.size a ≤ S256x5.size a
  hwx0_9 : ∀ i : grid0.Coords, EltTy.bits .bf16 = 32 ∨ (Rect.block (s := S256x5) S256x5.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)

variable [Facts₀]

def dot_S2048x5_S5x256_S2048x256_1_0_0_1_n_n : DotDims S2048x5 S5x256 S2048x256 where
  lhsContracting := [1]
  rhsContracting := [0]
  lhsNonContracting := [0]
  rhsNonContracting := [1]
  lhsBatch := []
  rhsBatch := []
  wf := dot_S2048x5_S5x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x5_S2048x5_1_0_0_1_n_n : DotDims S2048x256 S256x5 S2048x5 where
  lhsContracting := [1]
  rhsContracting := [0]
  lhsNonContracting := [0]
  rhsNonContracting := [1]
  lhsBatch := []
  rhsBatch := []
  wf := dot_S2048x256_S256x5_S2048x5_1_0_0_1_n_n_wf

abbrev win0_0 : Pipeline.Window sig grid0 :=
  Pipeline.Window.ofSpec (Memref.whole main_v0) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S256x5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x8192 : Shape := ⟨2, ![32, 8192]⟩
abbrev S32x8192x5 : Shape := ⟨3, ![32, 8192, 5]⟩
abbrev S5x256 : Shape := ⟨2, ![5, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S262144x5 : Shape := ⟨2, ![262144, 5]⟩
abbrev S262144x256 : Shape := ⟨2, ![262144, 256]⟩
abbrev S1x256 : Shape := ⟨2, ![1, 256]⟩
abbrev S_ : Shape := ⟨0, ![]⟩
abbrev S262144x1 : Shape := ⟨2, ![262144, 1]⟩
abbrev S1x1 : Shape := ⟨2, ![1, 1]⟩
abbrev S262144 : Shape := ⟨1, ![262144]⟩

abbrev nBuf : Space → Nat
  | .hbm => 122
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S32x8192x5, .f32⟩
  | .hbm, ⟨3, _⟩ => ⟨S5x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S262144x5, .f32⟩
  | .hbm, ⟨10, _⟩ => ⟨S262144x256, .f32⟩
  | .hbm, ⟨11, _⟩ => ⟨S1x256, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S1x256, .f32⟩
  | .hbm, ⟨20, _⟩ => ⟨S262144x256, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S262144x1, .f32⟩
  | .hbm, ⟨27, _⟩ => ⟨S1x1, .f32⟩
  | .hbm, ⟨28, _⟩ => ⟨S262144x1, .f32⟩
  | .hbm, ⟨29, _⟩ => ⟨S262144x1, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144x1, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S262144x5, .f32⟩
  | .hbm, ⟨43, _⟩ => ⟨S262144x1, .f32⟩
  | .hbm, ⟨44, _⟩ => ⟨S262144, .f32⟩
  | .hbm, ⟨45, _⟩ => ⟨S262144x1, .f32⟩
  | .hbm, ⟨46, _⟩ => ⟨S262144, .f32⟩
  | .hbm, ⟨47, _⟩ => ⟨S_, .i32⟩
  | .hbm, ⟨48, _⟩ => ⟨S1, .i32⟩
  | .hbm, ⟨49, _⟩ => ⟨S_, .f32⟩
  | .hbm, ⟨50, _⟩ => ⟨S262144, .f32⟩
  | .hbm, ⟨51, _⟩ => ⟨S262144x5, .f32⟩
  | .hbm, ⟨52, _⟩ => ⟨S262144x256, .f32⟩
  | .hbm, ⟨53, _⟩ => ⟨S1x256, .f32⟩
  | .hbm, ⟨54, _⟩ => ⟨S262144x256, .f32⟩
  | .hbm, ⟨55, _⟩ => ⟨S262144x256, .f32⟩
  | .hbm, ⟨56, _⟩ => ⟨S262144x256, .f32⟩
  | .hbm, ⟨57, _⟩ => ⟨S_, .f32⟩
  | .hbm, ⟨58, _⟩ => ⟨S262144x256, .f32⟩
  | .hbm, ⟨59, _⟩ => ⟨S262144x256, .f32⟩
  | .hbm, ⟨60, _⟩ => ⟨S262144x256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S262144x256, .f32⟩
  | .hbm, ⟨65, _⟩ => ⟨S_, .f32⟩
  | .hbm, ⟨66, _⟩ => ⟨S262144x256, .f32⟩
  | .hbm, ⟨67, _⟩ => ⟨S262144x256, .f32⟩
  | .hbm, ⟨68, _⟩ => ⟨S262144x1, .f32⟩
  | .hbm, ⟨69, _⟩ => ⟨S1x1, .f32⟩
  | .hbm, ⟨70, _⟩ => ⟨S262144x1, .f32⟩
  | .hbm, ⟨71, _⟩ => ⟨S262144x1, .f32⟩
  | .hbm, ⟨72, _⟩ => ⟨S262144, .f32⟩
  | .hbm, ⟨73, _⟩ => ⟨S_, .f32⟩
  | .hbm, ⟨74, _⟩ => ⟨S262144, .f32⟩
  | .hbm, ⟨75, _⟩ => ⟨S262144x1, .f32⟩
  | .hbm, ⟨76, _⟩ => ⟨S262144x256, .f32⟩
  | .hbm, ⟨77, _⟩ => ⟨S262144x256, .f32⟩
  | .hbm, ⟨78, _⟩ => ⟨S262144x256, .f32⟩
  | .hbm, ⟨79, _⟩ => ⟨S262144x256, .f32⟩
  | .hbm, ⟨80, _⟩ => ⟨S262144x256, .f32⟩
  | .hbm, ⟨81, _⟩ => ⟨S262144x256, .f32⟩
  | .hbm, ⟨82, _⟩ => ⟨S262144x256, .f32⟩
  | .hbm, ⟨83, _⟩ => ⟨S262144x256, .f32⟩
  | .hbm, ⟨84, _⟩ => ⟨S262144x5, .f32⟩
  | .hbm, ⟨85, _⟩ => ⟨S262144x1, .f32⟩
  | .hbm, ⟨86, _⟩ => ⟨S262144, .f32⟩
  | .hbm, ⟨87, _⟩ => ⟨S262144, .f32⟩
  | .hbm, ⟨88, _⟩ => ⟨S_, .f32⟩
  | .hbm, ⟨89, _⟩ => ⟨S262144, .f32⟩
  | .hbm, ⟨90, _⟩ => ⟨S262144, .f32⟩
  | .hbm, ⟨91, _⟩ => ⟨S262144x1, .f32⟩
  | .hbm, ⟨92, _⟩ => ⟨S262144, .f32⟩
  | .hbm, ⟨93, _⟩ => ⟨S262144x1, .f32⟩
  | .hbm, ⟨94, _⟩ => ⟨S262144, .f32⟩
  | .hbm, ⟨95, _⟩ => ⟨S262144x1, .f32⟩
  | .hbm, ⟨96, _⟩ => ⟨S262144, .f32⟩
  | .hbm, ⟨97, _⟩ => ⟨S262144, .f32⟩
  | .hbm, ⟨98, _⟩ => ⟨S_, .f32⟩
  | .hbm, ⟨99, _⟩ => ⟨S262144, .f32⟩
  | .hbm, ⟨100, _⟩ => ⟨S262144, .f32⟩
  | .hbm, ⟨101, _⟩ => ⟨S262144, .f32⟩
  | .hbm, ⟨102, _⟩ => ⟨S262144, .f32⟩
  | .hbm, ⟨103, _⟩ => ⟨S262144, .f32⟩
  | .hbm, ⟨104, _⟩ => ⟨S262144, .f32⟩
  | .hbm, ⟨105, _⟩ => ⟨S262144, .f32⟩
  | .hbm, ⟨106, _⟩ => ⟨S262144, .f32⟩
  | .hbm, ⟨107, _⟩ => ⟨S262144, .f32⟩
  | .hbm, ⟨108, _⟩ => ⟨S262144, .f32⟩
  | .hbm, ⟨109, _⟩ => ⟨S262144, .f32⟩
  | .hbm, ⟨110, _⟩ => ⟨S262144, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S32x8192, .f32⟩
  | .hbm, ⟨116, _⟩ => ⟨S32x8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_7 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_8 : Ref sig .tc := ⟨.hbm, 111, rfl⟩
abbrev main_v92 : Ref sig .tc := ⟨.hbm, 112, rfl⟩
abbrev main_cst_9 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_10 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩

abbrev nD : Nat := 1
abbrev τ : Topo := Topo.v7x

variable {F : FTy → Type} [FloatOps F]

class Facts₀ : Prop where
  shapeCasts_S32x8192x5_S262144x5 : S32x8192x5.ShapeCasts S262144x5
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x5_S262144x1_0_0 : S262144x5.Slices ![0, 0] S262144x1
  slices_S262144x5_S262144x1_0_3 : S262144x5.Slices ![0, 3] S262144x1
  bcast_S_S1 : S_.BroadcastsInDim S1 (![] : Fin 0 → Fin S1.rank)
  slices_S262144x5_S262144x1_0_2 : S262144x5.Slices ![0, 2] S262144x1
  slices_S262144x5_S262144x1_0_4 : S262144x5.Slices ![0, 4] S262144x1
  reducesTo_S262144_S_d0 : S262144.ReducesTo [0] S_
  h_S_ : 0 < S_.numel
  reducesTo_S32x8192_S_d0_1 : S32x8192.ReducesTo [0, 1] S_
  dot_S262144x5_S5x256_S262144x256_1_0_0_1_n_n_wf : DotDims.WF S262144x5 S5x256 S262144x256 [1] [0] [0] [1] [] []
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []
  dot_S262144x1_S256x1_S262144x256_1_1_0_0_n_n_wf : DotDims.WF S262144x1 S256x1 S262144x256 [1] [1] [0] [0] [] []
  dot_S262144x256_S256x256_S262144x256_1_1_0_0_n_n_wf : DotDims.WF S262144x256 S256x256 S262144x256 [1] [1] [0] [0] [] []
  dot_S262144x256_S5x256_S262144x5_1_1_0_0_n_n_wf : DotDims.WF S262144x256 S5x256 S262144x5 [1] [1] [0] [0] [] []
  scatter_S262144x5_S1_S262144_0_1_1_0_wf : ScatterDims.WF S262144x5 S1 S262144 [0] [1] [1] 0

variable [Facts₀]

def dot_S262144x5_S5x256_S262144x256_1_0_0_1_n_n : DotDims S262144x5 S5x256 S262144x256 where
  lhsContracting := [1]
  rhsContracting := [0]
  lhsNonContracting := [0]
  rhsNonContracting := [1]
  lhsBatch := []
  rhsBatch := []
  wf := dot_S262144x5_S5x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x1_S256x1_S262144x256_1_1_0_0_n_n : DotDims S262144x1 S256x1 S262144x256 where
  lhsContracting := [1]
  rhsContracting := [1]
  lhsNonContracting := [0]
  rhsNonContracting := [0]
  lhsBatch := []
  rhsBatch := []
  wf := dot_S262144x1_S256x1_S262144x256_1_1_0_0_n_n_wf
def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf
def dot_S262144x256_S5x256_S262144x5_1_1_0_0_n_n : DotDims S262144x256 S5x256 S262144x5 where
  lhsContracting := [1]
  rhsContracting := [1]
  lhsNonContracting := [0]
  rhsNonContracting := [0]
  lhsBatch := []
  rhsBatch := []
  wf := dot_S262144x256_S5x256_S262144x5_1_1_0_0_n_n_wf
def scatter_S262144x5_S1_S262144_0_1_1_0 : ScatterDims S262144x5 S1 S262144 where
  updateWindowDims := [0]
  insertedWindowDims := [1]
  scatterDimsToOperandDims := [1]
  indexVectorDim := 0
  wf := scatter_S262144x5_S1_S262144_0_1_1_0_wf

class Facts : Prop extends Facts₀ where

variable [Facts]
-- ==== Proof.Net.lean ====
/-
  A small tanh network with one scalar output, its gradient with respect to the input written in two ways, and a
  residual of the Black-Scholes kind built from them — all over the extended reals, row by row.

  A point is a row x of five numbers. The network is  h1 = tanh (x W1 + b1),  h2 = tanh (h1 W2 + b2),
  value = h2 · W3 + b3.  Its gradient in x, by the chain rule from the output back, is

      dz2 = W3 ∘ tanh'(z2),   dh1 = dz2 W2ᵀ,   dz1 = dh1 ∘ tanh'(z1),   grad = dz1 W1ᵀ,

  with tanh'(z) = 1 − tanh² z. One program forms  g · (1 − h·h)  for a factor g · tanh'(z); the other forms
  g·(1 − h) + (g·(1 − h))·h. Both forms are written out below (`grad`, `gradR`); the first takes the transposed
  weight tables as separate data (`W1T`, `W2T`), as that program is handed them.

  The residual at a point uses the value, two entries of the gradient, and a forward difference of the gradient's first
  entry between the point and the point with `step` added to its first coordinate (`shift`). The two programs
  multiply its middle term's factors in different orders (`resid`, `residR`).

  The totals: one program adds, block of 2048 rows after block, the block's sum of squared residuals and its sum of
  squared differences of two further columns, and divides once at the end (`totalK`); the other divides each
  whole-array sum and adds the quotients (`totalR`).

  The float literals stay the words the programs print (`Ideal.ofBits`): the same word on both sides is never evaluated.
-/
import Idealize.ShloMosaic.PureOps.Ideal
import Idealize.ShloMosaic.Lib.ValueIdx

noncomputable section

open scoped BigOperators

namespace Cert.Net

open Idealize.ShloMosaic Idealize.ShloMosaic.ValueIdx

/-- The words of 1.0, 0.5, the difference step (the f32 nearest 0.01), 0.0 and 262144.0. -/
abbrev one : EReal := Ideal.ofBits .f32 0x3F800000#32
abbrev half : EReal := Ideal.ofBits .f32 0x3F000000#32
abbrev step : EReal := Ideal.ofBits .f32 0x3C23D70A#32
abbrev zero : EReal := Ideal.ofBits .f32 0x00000000#32
abbrev count : EReal := Ideal.ofBits .f32 0x48800000#32

/-- The weights: three layers, and the first two layers' tables once more, transposed. -/
structure Weights where
  W1 : Fin 5 → Fin 256 → EReal
  b1 : Fin 256 → EReal
  W2 : Fin 256 → Fin 256 → EReal
  b2 : Fin 256 → EReal
  W3 : Fin 256 → EReal
  b3 : EReal
  W1T : Fin 256 → Fin 5 → EReal
  W2T : Fin 256 → Fin 256 → EReal

namespace Weights

variable (N : Weights)

/-- First hidden layer at a point. -/
def hid1 (x : Fin 5 → EReal) (j : Fin 256) : EReal := Ideal.tanh ((∑ k : Fin 5, x k * N.W1 k j) + N.b1 j)
/-- Second hidden layer. -/
def hid2 (x : Fin 5 → EReal) (j : Fin 256) : EReal := Ideal.tanh ((∑ k : Fin 256, N.hid1 x k * N.W2 k j) + N.b2 j)
/-- The network's value. -/
def value (x : Fin 5 → EReal) : EReal := (∑ k : Fin 256, N.hid2 x k * N.W3 k) + N.b3

/-! ### The gradient, with tanh' as 1 − h·h and the transposed tables -/

def dz2 (x : Fin 5 → EReal) (j : Fin 256) : EReal := N.W3 j * (one - N.hid2 x j * N.hid2 x j)
def dh1 (x : Fin 5 → EReal) (j : Fin 256) : EReal := ∑ k : Fin 256, N.dz2 x k * N.W2T k j
def dz1 (x : Fin 5 → EReal) (j : Fin 256) : EReal := N.dh1 x j * (one - N.hid1 x j * N.hid1 x j)
def grad (x : Fin 5 → EReal) (i : Fin 5) : EReal := ∑ k : Fin 256, N.dz1 x k * N.W1T k i

/-! ### The gradient, with g · tanh' as g·(1 − h) + (g·(1 − h))·h, the output's cotangent a one, the tables read across -/

def dz2R (x : Fin 5 → EReal) (j : Fin 256) : EReal :=
  (one * N.W3 j) * (one - N.hid2 x j) + ((one * N.W3 j) * (one - N.hid2 x j)) * N.hid2 x j
def dh1R (x : Fin 5 → EReal) (j : Fin 256) : EReal := ∑ k : Fin 256, N.dz2R x k * N.W2 j k
def dz1R (x : Fin 5 → EReal) (j : Fin 256) : EReal :=
  N.dh1R x j * (one - N.hid1 x j) + (N.dh1R x j * (one - N.hid1 x j)) * N.hid1 x j
def gradR (x : Fin 5 → EReal) (i : Fin 5) : EReal := ∑ k : Fin 256, N.dz1R x k * N.W1 i k

end Weights

/-- The point with the step added to its first coordinate. -/
def shift (x : Fin 5 → EReal) : Fin 5 → EReal := fun k => if k = 0 then x k + step else x k

namespace Weights

variable (N : Weights)

/-- The residual at a point: grad₃ + ½σ²s²·(forward difference of grad₀) + r·s·grad₀ − r·value, with s, σ, r the point's
    coordinates 0, 2, 4; the middle term's factors multiplied left to right. -/
def resid (x : Fin 5 → EReal) : EReal :=
  ((N.grad x 3 + ((((half * x 2) * x 2) * x 0) * x 0) * Ideal.div (N.grad (shift x) 0 - N.grad x 0) step)
    + ((x 4 * x 0) * N.grad x 0)) - x 4 * N.value x

/-- The same from the other gradient, the middle term as (½·σ²)·s². -/
def residR (x : Fin 5 → EReal) : EReal :=
  ((N.gradR x 3 + ((half * (x 2 * x 2)) * (x 0 * x 0)) * Ideal.div (N.gradR (shift x) 0 - N.gradR x 0) step)
    + ((x 4 * x 0) * N.gradR x 0)) - x 4 * N.value x

end Weights

/-- Row p of block t of a table of 262144 rows cut into 128 blocks of 2048. -/
def row (t : Fin 128) (p : Fin 2048) : Fin 262144 := ⟨t.val * 2048 + p.val, by have := t.isLt; have := p.isLt; omega⟩

/-- What one block adds: its squared residuals, and its squared differences. -/
def block (N : Weights) (X : Fin 262144 → Fin 5 → EReal) (D : Fin 262144 → EReal) (t : Fin 128) : EReal :=
  (∑ p : Fin 2048, N.resid (X (row t p)) * N.resid (X (row t p))) + (∑ p : Fin 2048, D (row t p) * D (row t p))

/-- Block after block from zero, divided once. -/
def totalK (N : Weights) (X : Fin 262144 → Fin 5 → EReal) (D : Fin 262144 → EReal) : EReal :=
  Ideal.div (zero + ∑ t : Fin 128, block N X D t) count

/-- Each whole sum divided, the quotients added. -/
def totalR (N : Weights) (X : Fin 262144 → Fin 5 → EReal) (D : Fin 262144 → EReal) : EReal :=
  Ideal.div (zero + ∑ r : Fin 262144, N.residR (X r) * N.residR (X r)) count
    + Ideal.div (zero + ∑ r : Fin 262144, D r * D r) count

/-! ### The programs' arrays as weights, points and differences -/

/-- The weights held by eight arrays of the programs' shapes. -/
def ofArrays (w1 : (⟨2, ![5, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 1]⟩ : Shape).Idx → EReal) (b3 : (⟨1, ![1]⟩ : Shape).Idx → EReal)
    (w1t : (⟨2, ![256, 5]⟩ : Shape).Idx → EReal) (w2t : (⟨2, ![256, 256]⟩ : Shape).Idx → EReal) : Weights where
  W1 k j := w1 (ix2 k j)
  b1 j := b1 (ix1 j)
  W2 k j := w2 (ix2 k j)
  b2 j := b2 (ix1 j)
  W3 j := w3 (ix2 j (0 : Fin 1))
  b3 := b3 (ix1 (0 : Fin 1))
  W1T k i := w1t (ix2 k i)
  W2T k j := w2t (ix2 k j)

/-- The weights of the six argument arrays, the transposed tables read across. -/
def ofArgs (w1 : (⟨2, ![5, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 1]⟩ : Shape).Idx → EReal) (b3 : (⟨1, ![1]⟩ : Shape).Idx → EReal) : Weights where
  W1 k j := w1 (ix2 k j)
  b1 j := b1 (ix1 j)
  W2 k j := w2 (ix2 k j)
  b2 j := b2 (ix1 j)
  W3 j := w3 (ix2 j (0 : Fin 1))
  b3 := b3 (ix1 (0 : Fin 1))
  W1T k i := w1 (ix2 i k)
  W2T k j := w2 (ix2 j k)

/-- Row p of an n × 5 table. -/
def rowOf {n : Nat} (x : (⟨2, ![n, 5]⟩ : Shape).Idx → EReal) (p : Fin n) : Fin 5 → EReal := fun k => x (ix2 p k)

/-- Flat row r of a 32 × 8192 table sits at (r / 8192, r mod 8192). -/
def cell (r : Fin 262144) : (⟨2, ![32, 8192]⟩ : Shape).Idx :=
  ix2 (⟨r.val / 8192, by have := r.isLt; omega⟩ : Fin 32) (⟨r.val % 8192, Nat.mod_lt _ (by norm_num)⟩ : Fin 8192)

/-- The points: flat row r of the 32 × 8192 × 5 table. -/
def points (d : (⟨3, ![32, 8192, 5]⟩ : Shape).Idx → EReal) (r : Fin 262144) : Fin 5 → EReal :=
  fun k => d (ix3 (⟨r.val / 8192, by have := r.isLt; omega⟩ : Fin 32) (⟨r.val % 8192, Nat.mod_lt _ (by norm_num)⟩ : Fin 8192) k)

/-- The differences of the two 32 × 8192 tables, by flat row. -/
def diffs (a b : (⟨2, ![32, 8192]⟩ : Shape).Idx → EReal) (r : Fin 262144) : EReal := a (cell r) - b (cell r)

end Cert.Net

end
-- ==== Proof.Sums.lean ====
/-
  Three re-indexings of finite sums: a vector's indices by position, the cells of a 32 × 8192 table by flat row, and the
  rows of a table of 128 blocks of 2048 by block and row within the block.
-/
import proofs.«165616_j13804024889406_1_alg».proof.Proof.Net

noncomputable section

open scoped BigOperators

namespace Cert.Net

open Idealize.ShloMosaic Idealize.ShloMosaic.ValueIdx

/-- A vector's index set is its range of positions: an index is read at its one axis, a position makes the index. -/
def idxEquiv1 {n : Nat} : (⟨1, ![n]⟩ : Shape).Idx ≃ Fin n where
  toFun j := j 0
  invFun r := ix1 r
  left_inv j := (eq_ix1 j).symm
  right_inv _ := rfl

/-- A sum over a vector's indices is the sum over its positions. -/
theorem sum_idx1 {M : Type*} [AddCommMonoid M] {n : Nat} (f : (⟨1, ![n]⟩ : Shape).Idx → M) :
    ∑ j, f j = ∑ r : Fin n, f (ix1 r) := by
  rw [← Equiv.sum_comp (idxEquiv1 (n := n)).symm f]
  rfl

/-- Quotient and remainder by 8192: a flat row below 32 · 8192 is a pair (b, n) with b < 32 and n < 8192, the pair
    (b, n) sitting at flat row b · 8192 + n. -/
def cellEquiv : Fin 262144 ≃ Fin 32 × Fin 8192 where
  toFun r := (⟨r.val / 8192, by have := r.isLt; omega⟩, ⟨r.val % 8192, Nat.mod_lt _ (by norm_num)⟩)
  invFun p := ⟨p.1.val * 8192 + p.2.val, by have := p.1.isLt; have := p.2.isLt; omega⟩
  left_inv r := by
    apply Fin.ext
    show r.val / 8192 * 8192 + r.val % 8192 = r.val
    omega
  right_inv p := by
    obtain ⟨a, b⟩ := p
    have ha := a.isLt
    have hb := b.isLt
    apply Prod.ext
    · apply Fin.ext
      show (a.val * 8192 + b.val) / 8192 = a.val
      omega
    · apply Fin.ext
      show (a.val * 8192 + b.val) % 8192 = b.val
      omega

/-- A sum over the cells of the 32 × 8192 table is the sum over flat rows. -/
theorem sum_cells {M : Type*} [AddCommMonoid M] (g : (⟨2, ![32, 8192]⟩ : Shape).Idx → M) :
    ∑ j, g j = ∑ r : Fin 262144, g (cell r) := by
  refine (sum_idx2 g).trans ?_
  refine (Fintype.sum_prod_type' (fun (a : Fin 32) (b : Fin 8192) => g (ix2 a b))).symm.trans ?_
  refine (Equiv.sum_comp cellEquiv (fun p : Fin 32 × Fin 8192 => g (ix2 p.1 p.2))).symm.trans ?_
  rfl

/-- Block t and row p within it name flat row t · 2048 + p; every flat row below 128 · 2048 is named once. -/
def rowEquiv : Fin 128 × Fin 2048 ≃ Fin 262144 where
  toFun q := row q.1 q.2
  invFun r := (⟨r.val / 2048, by have := r.isLt; omega⟩, ⟨r.val % 2048, Nat.mod_lt _ (by norm_num)⟩)
  left_inv q := by
    obtain ⟨t, p⟩ := q
    have ht := t.isLt
    have hp := p.isLt
    apply Prod.ext
    · apply Fin.ext
      show (t.val * 2048 + p.val) / 2048 = t.val
      omega
    · apply Fin.ext
      show (t.val * 2048 + p.val) % 2048 = p.val
      omega
  right_inv r := by
    apply Fin.ext
    show r.val / 2048 * 2048 + r.val % 2048 = r.val
    omega

/-- Block by block, row by row within the block, is row by row. -/
theorem sum_rows {M : Type*} [AddCommMonoid M] (f : Fin 262144 → M) :
    ∑ t : Fin 128, ∑ p : Fin 2048, f (row t p) = ∑ r : Fin 262144, f r := by
  refine (Fintype.sum_prod_type' (fun (t : Fin 128) (p : Fin 2048) => f (row t p))).symm.trans ?_
  exact Equiv.sum_comp rowEquiv f

end Cert.Net

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Bridge.lean ====
/-
  The two totals agree when the transposed tables are the tables read across and the second and third layers' weights
  are real numbers.

  g·(1 − h) + (g·(1 − h))·h = g·(1 − h·h) is an identity of real numbers; over the extended reals it holds once g is real
  (h, a tanh, always is), and g is real layer by layer back from the last layer's weights. The residual's middle term
  is re-associated (products of extended reals commute and associate with no side condition). The block-by-block sum is
  the whole sum; and dividing a sum of two nonnegative extended reals by a positive real distributes.
-/
import proofs.«165616_j13804024889406_1_alg».proof.Proof.Net
import proofs.«165616_j13804024889406_1_alg».proof.Proof.Sums
import proofs.«165616_j13804024889406_1_alg».proof.Proof.LibFiniteOps

noncomputable section

open scoped BigOperators

namespace Cert.Net

open Idealize.ShloMosaic Idealize.ShloMosaic.ValueIdx Idealize.ShloMosaic.FiniteOps

/-! ### The literals -/

/-- The word of 1.0 is the extended real one. -/
theorem one_eq : one = 1 := ofBits_one_f32

/-- The word of 0.0 is the extended real zero. -/
theorem zero_eq : zero = 0 := Ideal.ofBits_zero_f32

/-- The word of 262144.0 is the real number 2¹⁸. -/
theorem count_eq : count = ((262144 : ℝ) : EReal) := by
  show Ideal.ofBits .f32 0x48800000#32 = ((262144 : ℝ) : EReal)
  simp [Ideal.ofBits, Ideal.ieee]
  rw [← EReal.coe_mul]
  exact congrArg _ (by norm_num)

/-! ### A tanh is a real number; the two forms of g · tanh' -/

/-- A tanh is a real number: −1 and 1 at the two infinities, the real tanh between. -/
theorem isReal_tanh (z : EReal) : IsReal (Ideal.tanh z) := by
  induction z using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem isReal_one : IsReal one := by rw [one_eq]; exact ⟨1, rfl⟩

/-- For real g and h, g·(1 − h) + (g·(1 − h))·h = g·(1 − h·h): both are g(1 − h)(1 + h). -/
theorem factor_eq {g h : EReal} (hg : IsReal g) (hh : IsReal h) :
    g * (one - h) + (g * (one - h)) * h = g * (one - h * h) := by
  obtain ⟨a, rfl⟩ := hg
  obtain ⟨b, rfl⟩ := hh
  rw [one_eq]
  have e : a * (1 - b) + (a * (1 - b)) * b = a * (1 - b * b) := by ring
  exact_mod_cast congrArg (fun r : ℝ => (r : EReal)) e

/-! ### The two gradients agree, layer by layer from the output back -/

section Layers

variable (N : Weights)

theorem isReal_hid1 (x : Fin 5 → EReal) (j : Fin 256) : IsReal (N.hid1 x j) := isReal_tanh _
theorem isReal_hid2 (x : Fin 5 → EReal) (j : Fin 256) : IsReal (N.hid2 x j) := isReal_tanh _

theorem dz2R_eq (hW3 : ∀ j, IsReal (N.W3 j)) (x : Fin 5 → EReal) (j : Fin 256) : N.dz2R x j = N.dz2 x j := by
  unfold Weights.dz2R Weights.dz2
  rw [one_eq, one_mul, ← one_eq]
  exact factor_eq (hW3 j) (isReal_hid2 N x j)

theorem isReal_dz2 (hW3 : ∀ j, IsReal (N.W3 j)) (x : Fin 5 → EReal) (j : Fin 256) : IsReal (N.dz2 x j) :=
  (hW3 j).mul (isReal_one.sub ((isReal_hid2 N x j).mul (isReal_hid2 N x j)))

theorem dh1R_eq (hT2 : ∀ k j, N.W2T k j = N.W2 j k) (hW3 : ∀ j, IsReal (N.W3 j)) (x : Fin 5 → EReal) (j : Fin 256) :
    N.dh1R x j = N.dh1 x j := by
  unfold Weights.dh1R Weights.dh1
  exact Finset.sum_congr rfl fun k _ => by rw [dz2R_eq N hW3, hT2]

theorem isReal_dh1 (hT2 : ∀ k j, N.W2T k j = N.W2 j k) (hW2 : ∀ k j, IsReal (N.W2 k j)) (hW3 : ∀ j, IsReal (N.W3 j))
    (x : Fin 5 → EReal) (j : Fin 256) : IsReal (N.dh1 x j) :=
  IsReal.sum _ _ fun k _ => (isReal_dz2 N hW3 x k).mul (by rw [hT2]; exact hW2 j k)

theorem dz1R_eq (hT2 : ∀ k j, N.W2T k j = N.W2 j k) (hW2 : ∀ k j, IsReal (N.W2 k j)) (hW3 : ∀ j, IsReal (N.W3 j))
    (x : Fin 5 → EReal) (j : Fin 256) : N.dz1R x j = N.dz1 x j := by
  unfold Weights.dz1R Weights.dz1
  rw [dh1R_eq N hT2 hW3]
  exact factor_eq (isReal_dh1 N hT2 hW2 hW3 x j) (isReal_hid1 N x j)

theorem gradR_eq (hT1 : ∀ k i, N.W1T k i = N.W1 i k) (hT2 : ∀ k j, N.W2T k j = N.W2 j k)
    (hW2 : ∀ k j, IsReal (N.W2 k j)) (hW3 : ∀ j, IsReal (N.W3 j)) : N.gradR = N.grad := by
  funext x i
  unfold Weights.gradR Weights.grad
  exact Finset.sum_congr rfl fun k _ => by rw [dz1R_eq N hT2 hW2 hW3, hT1]

/-- The residuals agree: the gradients do, and the middle term's factors re-associate. -/
theorem residR_eq (hT1 : ∀ k i, N.W1T k i = N.W1 i k) (hT2 : ∀ k j, N.W2T k j = N.W2 j k)
    (hW2 : ∀ k j, IsReal (N.W2 k j)) (hW3 : ∀ j, IsReal (N.W3 j)) (x : Fin 5 → EReal) : N.residR x = N.resid x := by
  unfold Weights.residR Weights.resid
  rw [gradR_eq N hT1 hT2 hW2 hW3]
  have e : (half * (x 2 * x 2)) * (x 0 * x 0) = (((half * x 2) * x 2) * x 0) * x 0 := by simp only [mul_assoc]
  rw [e]

end Layers

/-! ### The totals -/

/-- A square of an extended real is nonnegative. -/
theorem mul_self_nonneg' (a : EReal) : 0 ≤ a * a :=
  EReal.mul_nonneg_iff.mpr ((le_total 0 a).imp (fun h => ⟨h, h⟩) (fun h => ⟨h, h⟩))

theorem total_eq (N : Weights) (X : Fin 262144 → Fin 5 → EReal) (D : Fin 262144 → EReal)
    (hT1 : ∀ k i, N.W1T k i = N.W1 i k) (hT2 : ∀ k j, N.W2T k j = N.W2 j k)
    (hW2 : ∀ k j, IsReal (N.W2 k j)) (hW3 : ∀ j, IsReal (N.W3 j)) :
    totalK N X D = totalR N X D := by
  have hA := sum_rows (fun r => N.resid (X r) * N.resid (X r))
  have hB := sum_rows (fun r => D r * D r)
  have hc : (262144 : ℝ) ≠ 0 := by norm_num
  unfold totalK totalR block
  simp only [residR_eq N hT1 hT2 hW2 hW3]
  rw [Finset.sum_add_distrib, hA, hB, zero_eq, zero_add, zero_add, zero_add, count_eq, Ideal.div_coe hc,
    Ideal.div_coe hc, Ideal.div_coe hc]
  exact EReal.right_distrib_of_nonneg (Finset.sum_nonneg fun r _ => mul_self_nonneg' _)
    (Finset.sum_nonneg fun r _ => mul_self_nonneg' _)

end Cert.Net

end
-- ==== Proof.PreReal.lean ====
/-
  The finiteness precondition read back for the two weight arrays whose entries the gradient's identity needs real.
-/
import proofs.«165616_j13804024889406_1_alg».proof.Defs
import proofs.«165616_j13804024889406_1_alg».proof.Proof.Gen.Pre_finite_inputs
import proofs.«165616_j13804024889406_1_alg».proof.Proof.LibFiniteOps
import Idealize.ShloMosaic.Lib.ReduceAll

noncomputable section

namespace Cert.Proof.PreReal

open Idealize.ShloMosaic Idealize.SL.Sem Idealize.ShloMosaic.FiniteOps

/-- Under the precondition every entry of the second layer's weight table (argument 5) and of the third layer's column
    (argument 7) is a real number, on every device. -/
theorem weights_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg5) : FVec Ideal Cert.KernelIdeal.S256x256 .f32) i))
    ∧ (∀ i, IsReal ((m ((c.tc : Thread Cert.KernelIdeal.nD Cert.KernelIdeal.τ).loc Cert.KernelIdeal.main_arg7) : FVec Ideal Cert.KernelIdeal.S256x1 .f32) i)) := by
  -- the predicate's one word, at the scalar shape's one index, is a one
  have h0 := congrFun (h c) ValueIdx.ix0
  dsimp only [Cert.Pre_finite_inputs.fn, Cert.Pre_finite_inputs.fn_part1, Cert.Pre_finite_inputs.fn_part2] at h0
  -- the nine conjuncts are and-ed left to right: peel the last (argument 8), keep argument 7's, descend past
  -- argument 6's to argument 5's
  obtain ⟨h38, _⟩ := IntOp.andi_eq_one.1 h0
  obtain ⟨h33, h37⟩ := IntOp.andi_eq_one.1 h38
  obtain ⟨h28, _⟩ := IntOp.andi_eq_one.1 h33
  obtain ⟨_, h27⟩ := IntOp.andi_eq_one.1 h28
  exact ⟨allReal_of_all_abs_lt_inf _ _ _ _ _ h27, allReal_of_all_abs_lt_inf _ _ _ _ _ h37⟩

end Cert.Proof.PreReal

end
-- ==== Proof.KBlocks.lean ====
/-
  The blocks the body is handed at a grid point, in terms of the argument arrays: block t of the flattened points is rows
  2048·t … 2048·t + 2047 of the 32 × 8192 × 5 table; blocks t of the two flattened columns likewise; the weight blocks are
  the whole weight arrays (narrowing the float format is the identity over the extended reals), and the two transposed
  tables are the weight tables read across.
-/
import proofs.«165616_j13804024889406_1_alg».proof.Proof.Gen.KernelIdeal.Frame
import proofs.«165616_j13804024889406_1_alg».proof.Proof.Net
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Blocks

open Idealize.ShloMosaic.ValueIdx Cert.KernelIdeal Cert.KernelIdeal.Gen Cert.Net

variable (m : (ℓ : Loc nD τ sig) → Buf (Elt Ideal) ℓ)

/-- The eleven input blocks at a point, each at its literal type. -/
abbrev b0 (c : Dev nD) (t : Fin cfg0.N) : FVec Ideal S2048x5 .f32 := iblk m c 0 t
abbrev b1 (c : Dev nD) (t : Fin cfg0.N) : FVec Ideal S2048 .f32 := iblk m c 1 t
abbrev b2 (c : Dev nD) (t : Fin cfg0.N) : FVec Ideal S2048 .f32 := iblk m c 2 t
abbrev b3 (c : Dev nD) (t : Fin cfg0.N) : FVec Ideal S5x256 .bf16 := iblk m c 3 t
abbrev b4 (c : Dev nD) (t : Fin cfg0.N) : FVec Ideal S256 .f32 := iblk m c 4 t
abbrev b5 (c : Dev nD) (t : Fin cfg0.N) : FVec Ideal S256x256 .bf16 := iblk m c 5 t
abbrev b6 (c : Dev nD) (t : Fin cfg0.N) : FVec Ideal S256 .f32 := iblk m c 6 t
abbrev b7 (c : Dev nD) (t : Fin cfg0.N) : FVec Ideal S256x1 .bf16 := iblk m c 7 t
abbrev b8 (c : Dev nD) (t : Fin cfg0.N) : FVec Ideal S1 .f32 := iblk m c 8 t
abbrev b9 (c : Dev nD) (t : Fin cfg0.N) : FVec Ideal S256x5 .bf16 := iblk m c 9 t
abbrev b10 (c : Dev nD) (t : Fin cfg0.N) : FVec Ideal S256x256 .bf16 := iblk m c 10 t

/-- The weights, points and differences of the argument arrays on a core. -/
abbrev argW (c : Dev nD) : Weights :=
  ofArgs (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
abbrev argX (c : Dev nD) : Fin 262144 → Fin 5 → EReal := points (m ((c.tc : Thread nD τ).loc main_arg2))
abbrev argD (c : Dev nD) : Fin 262144 → EReal := diffs (m ((c.tc : Thread nD τ).loc main_arg0)) (m ((c.tc : Thread nD τ).loc main_arg1))

/-! ### What the host operations before the region leave in the windows' arrays -/

/-- The flattened points are the 32 × 8192 × 5 table reshaped. -/
theorem v0_eq (c : Dev nD) : (V m c main_v0 : S262144x5.Idx → EReal)
    = shapeCast S262144x5 (m ((c.tc : Thread nD τ).loc main_arg2)) shapeCasts_S32x8192x5_S262144x5 := by
  show StableHlo.after hostOps0 (fun b => m (c, b)) (Proc.devRef .tc main_v0) = _
  after_results
  rfl

/-- The first flattened column is the first 32 × 8192 table reshaped. -/
theorem v1_eq (c : Dev nD) : (V m c main_v1 : S262144.Idx → EReal)
    = shapeCast S262144 (m ((c.tc : Thread nD τ).loc main_arg0)) shapeCasts_S32x8192_S262144 := by
  show StableHlo.after hostOps0 (fun b => m (c, b)) (Proc.devRef .tc main_v1) = _
  after_results
  rfl

/-- The second flattened column is the second 32 × 8192 table reshaped. -/
theorem v2_eq (c : Dev nD) : (V m c main_v2 : S262144.Idx → EReal)
    = shapeCast S262144 (m ((c.tc : Thread nD τ).loc main_arg1)) shapeCasts_S32x8192_S262144 := by
  show StableHlo.after hostOps0 (fun b => m (c, b)) (Proc.devRef .tc main_v2) = _
  after_results
  rfl

/-- The first layer's table, narrowed. -/
theorem v3_eq (c : Dev nD) : (V m c main_v3 : S5x256.Idx → EReal)
    = (truncf .bf16 (m ((c.tc : Thread nD τ).loc main_arg3) : FVec Ideal S5x256 .f32) bitsLt_bf16_f32 : FVec Ideal S5x256 .bf16) := by
  show StableHlo.after hostOps0 (fun b => m (c, b)) (Proc.devRef .tc main_v3) = _
  after_results

/-- The second layer's table, narrowed. -/
theorem v4_eq (c : Dev nD) : (V m c main_v4 : S256x256.Idx → EReal)
    = (truncf .bf16 (m ((c.tc : Thread nD τ).loc main_arg5) : FVec Ideal S256x256 .f32) bitsLt_bf16_f32 : FVec Ideal S256x256 .bf16) := by
  show StableHlo.after hostOps0 (fun b => m (c, b)) (Proc.devRef .tc main_v4) = _
  after_results

/-- The third layer's table, narrowed. -/
theorem v5_eq (c : Dev nD) : (V m c main_v5 : S256x1.Idx → EReal)
    = (truncf .bf16 (m ((c.tc : Thread nD τ).loc main_arg7) : FVec Ideal S256x1 .f32) bitsLt_bf16_f32 : FVec Ideal S256x1 .bf16) := by
  show StableHlo.after hostOps0 (fun b => m (c, b)) (Proc.devRef .tc main_v5) = _
  after_results

/-- The first layer's table, narrowed and transposed. -/
theorem v6_eq (c : Dev nD) : (V m c main_v6 : S256x5.Idx → EReal)
    = transpose S256x5 [1, 0] (truncf .bf16 (m ((c.tc : Thread nD τ).loc main_arg3) : FVec Ideal S5x256 .f32) bitsLt_bf16_f32 : FVec Ideal S5x256 .bf16)
        transposes_S5x256_S256x5_1_0 := by
  show StableHlo.after hostOps0 (fun b => m (c, b)) (Proc.devRef .tc main_v6) = _
  after_results

/-- The second layer's table, narrowed and transposed. -/
theorem v7_eq (c : Dev nD) : (V m c main_v7 : S256x256.Idx → EReal)
    = transpose S256x256 [1, 0] (truncf .bf16 (m ((c.tc : Thread nD τ).loc main_arg5) : FVec Ideal S256x256 .f32) bitsLt_bf16_f32 : FVec Ideal S256x256 .bf16)
        transposes_S256x256_S256x256_1_0 := by
  show StableHlo.after hostOps0 (fun b => m (c, b)) (Proc.devRef .tc main_v7) = _
  after_results

/-! ### The windows' index maps, decided over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val :=
  (by decide +kernel : ∀ t : Fin grid0.N, win0_1.index t 0 = t.val)
theorem idx2 : ∀ t : Fin cfg0.N, win0_2.index t 0 = t.val :=
  (by decide +kernel : ∀ t : Fin grid0.N, win0_2.index t 0 = t.val)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 :=
  (by decide +kernel : ∀ t : Fin grid0.N, win0_4.index t 0 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 :=
  (by decide +kernel : ∀ t : Fin grid0.N, win0_6.index t 0 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 :=
  (by decide +kernel : ∀ t : Fin grid0.N, win0_8.index t 0 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

/-! ### Each block read where its window's rectangle says: index × size + the coordinate inside the block -/

/-- Entry (p, k) of the points' block at point t is the flattened points at row 2048·t + p, column k. -/
theorem b0_read (c : Dev nD) (t : Fin cfg0.N) (p : Fin 2048) (k : Fin 5) (i : S262144x5.Idx)
    (h0 : (i 0).val = t.val * 2048 + p.val) (h1 : (i 1).val = k.val) :
    (iblk m c 0 t : FVec Ideal S2048x5 .f32) (ix2 p k) = V m c main_v0 i := by
  unfold iblk
  rw [View.read_apply]
  show V m c main_v0 (((cfg0.win 0).blk t).view.emb (ix2 p k)) = _
  refine congrArg (V m c main_v0) (funext fun a => Fin.ext ?_)
  match a with
  | ⟨0, _⟩ => show win0_0.index t 0 * 2048 + 1 * p.val = (i 0).val; rw [(idx0 t).1, h0]; omega
  | ⟨1, _⟩ => show win0_0.index t 1 * 5 + 1 * k.val = (i 1).val; rw [(idx0 t).2, h1]; omega

/-- Entry p of the first column's block at point t is the flattened column at 2048·t + p. -/
theorem b1_read (c : Dev nD) (t : Fin cfg0.N) (p : Fin 2048) (i : S262144.Idx) (h0 : (i 0).val = t.val * 2048 + p.val) :
    (iblk m c 1 t : FVec Ideal S2048 .f32) (ix1 p) = V m c main_v1 i := by
  unfold iblk
  rw [View.read_apply]
  show V m c main_v1 (((cfg0.win 1).blk t).view.emb (ix1 p)) = _
  refine congrArg (V m c main_v1) (funext fun a => Fin.ext ?_)
  match a with
  | ⟨0, _⟩ => show win0_1.index t 0 * 2048 + 1 * p.val = (i 0).val; rw [idx1 t, h0]; omega

/-- Entry p of the second column's block at point t is the flattened column at 2048·t + p. -/
theorem b2_read (c : Dev nD) (t : Fin cfg0.N) (p : Fin 2048) (i : S262144.Idx) (h0 : (i 0).val = t.val * 2048 + p.val) :
    (iblk m c 2 t : FVec Ideal S2048 .f32) (ix1 p) = V m c main_v2 i := by
  unfold iblk
  rw [View.read_apply]
  show V m c main_v2 (((cfg0.win 2).blk t).view.emb (ix1 p)) = _
  refine congrArg (V m c main_v2) (funext fun a => Fin.ext ?_)
  match a with
  | ⟨0, _⟩ => show win0_2.index t 0 * 2048 + 1 * p.val = (i 0).val; rw [idx2 t, h0]; omega

/-- A window whose one block is its whole array: the block is the array. -/
theorem b3_read (c : Dev nD) (t : Fin cfg0.N) (j : S5x256.Idx) :
    (iblk m c 3 t : FVec Ideal S5x256 .bf16) j = V m c main_v3 j := by
  unfold iblk
  rw [View.read_apply]
  show V m c main_v3 (((cfg0.win 3).blk t).view.emb j) = _
  refine congrArg (V m c main_v3) (funext fun a => Fin.ext ?_)
  match a with
  | ⟨0, _⟩ => show win0_3.index t 0 * 5 + 1 * (j 0).val = (j 0).val; rw [(idx3 t).1]; omega
  | ⟨1, _⟩ => show win0_3.index t 1 * 256 + 1 * (j 1).val = (j 1).val; rw [(idx3 t).2]; omega

theorem b4_read (c : Dev nD) (t : Fin cfg0.N) (j : S256.Idx) :
    (iblk m c 4 t : FVec Ideal S256 .f32) j = V m c main_arg4 j := by
  unfold iblk
  rw [View.read_apply]
  show V m c main_arg4 (((cfg0.win 4).blk t).view.emb j) = _
  refine congrArg (V m c main_arg4) (funext fun a => Fin.ext ?_)
  match a with
  | ⟨0, _⟩ => show win0_4.index t 0 * 256 + 1 * (j 0).val = (j 0).val; rw [idx4 t]; omega

theorem b5_read (c : Dev nD) (t : Fin cfg0.N) (j : S256x256.Idx) :
    (iblk m c 5 t : FVec Ideal S256x256 .bf16) j = V m c main_v4 j := by
  unfold iblk
  rw [View.read_apply]
  show V m c main_v4 (((cfg0.win 5).blk t).view.emb j) = _
  refine congrArg (V m c main_v4) (funext fun a => Fin.ext ?_)
  match a with
  | ⟨0, _⟩ => show win0_5.index t 0 * 256 + 1 * (j 0).val = (j 0).val; rw [(idx5 t).1]; omega
  | ⟨1, _⟩ => show win0_5.index t 1 * 256 + 1 * (j 1).val = (j 1).val; rw [(idx5 t).2]; omega

theorem b6_read (c : Dev nD) (t : Fin cfg0.N) (j : S256.Idx) :
    (iblk m c 6 t : FVec Ideal S256 .f32) j = V m c main_arg6 j := by
  unfold iblk
  rw [View.read_apply]
  show V m c main_arg6 (((cfg0.win 6).blk t).view.emb j) = _
  refine congrArg (V m c main_arg6) (funext fun a => Fin.ext ?_)
  match a with
  | ⟨0, _⟩ => show win0_6.index t 0 * 256 + 1 * (j 0).val = (j 0).val; rw [idx6 t]; omega

theorem b7_read (c : Dev nD) (t : Fin cfg0.N) (j : S256x1.Idx) :
    (iblk m c 7 t : FVec Ideal S256x1 .bf16) j = V m c main_v5 j := by
  unfold iblk
  rw [View.read_apply]
  show V m c main_v5 (((cfg0.win 7).blk t).view.emb j) = _
  refine congrArg (V m c main_v5) (funext fun a => Fin.ext ?_)
  match a with
  | ⟨0, _⟩ => show win0_7.index t 0 * 256 + 1 * (j 0).val = (j 0).val; rw [(idx7 t).1]; omega
  | ⟨1, _⟩ => show win0_7.index t 1 * 1 + 1 * (j 1).val = (j 1).val; rw [(idx7 t).2]; omega

theorem b8_read (c : Dev nD) (t : Fin cfg0.N) (j : S1.Idx) :
    (iblk m c 8 t : FVec Ideal S1 .f32) j = V m c main_arg8 j := by
  unfold iblk
  rw [View.read_apply]
  show V m c main_arg8 (((cfg0.win 8).blk t).view.emb j) = _
  refine congrArg (V m c main_arg8) (funext fun a => Fin.ext ?_)
  match a with
  | ⟨0, _⟩ => show win0_8.index t 0 * 1 + 1 * (j 0).val = (j 0).val; rw [idx8 t]; omega

theorem b9_read (c : Dev nD) (t : Fin cfg0.N) (j : S256x5.Idx) :
    (iblk m c 9 t : FVec Ideal S256x5 .bf16) j = V m c main_v6 j := by
  unfold iblk
  rw [View.read_apply]
  show V m c main_v6 (((cfg0.win 9).blk t).view.emb j) = _
  refine congrArg (V m c main_v6) (funext fun a => Fin.ext ?_)
  match a with
  | ⟨0, _⟩ => show win0_9.index t 0 * 256 + 1 * (j 0).val = (j 0).val; rw [(idx9 t).1]; omega
  | ⟨1, _⟩ => show win0_9.index t 1 * 5 + 1 * (j 1).val = (j 1).val; rw [(idx9 t).2]; omega

theorem b10_read (c : Dev nD) (t : Fin cfg0.N) (j : S256x256.Idx) :
    (iblk m c 10 t : FVec Ideal S256x256 .bf16) j = V m c main_v7 j := by
  unfold iblk
  rw [View.read_apply]
  show V m c main_v7 (((cfg0.win 10).blk t).view.emb j) = _
  refine congrArg (V m c main_v7) (funext fun a => Fin.ext ?_)
  match a with
  | ⟨0, _⟩ => show win0_10.index t 0 * 256 + 1 * (j 0).val = (j 0).val; rw [(idx10 t).1]; omega
  | ⟨1, _⟩ => show win0_10.index t 1 * 256 + 1 * (j 1).val = (j 1).val; rw [(idx10 t).2]; omega

/-! ### The blocks in terms of the argument arrays -/

/-- Entry (p, k) of the points' block at point t is the table at flat row 2048·t + p, column k. -/
theorem b0_val (c : Dev nD) (t : Fin cfg0.N) (p : Fin 2048) (k : Fin 5) :
    b0 m c t (ix2 p k) = points (m ((c.tc : Thread nD τ).loc main_arg2)) (row (t.cast N_0) p) k := by
  refine (b0_read m c t p k (ix2 (row (t.cast N_0) p) k) rfl rfl).trans ?_
  rw [v0_eq]
  unfold points
  refine shapeCast_apply (s := S32x8192x5) (t := S262144x5) _ _ _ _ ?_
  rw [Shape.rowMajor_val_two, Shape.rowMajor_val_three]
  show ((row (t.cast N_0) p).val / 8192 * 8192 + (row (t.cast N_0) p).val % 8192) * 5 + k.val = (row (t.cast N_0) p).val * 5 + k.val
  omega

/-- Entry p of the first column's block at point t is the first table at flat row 2048·t + p. -/
theorem b1_val (c : Dev nD) (t : Fin cfg0.N) (p : Fin 2048) :
    b1 m c t (ix1 p) = m ((c.tc : Thread nD τ).loc main_arg0) (cell (row (t.cast N_0) p)) := by
  refine (b1_read m c t p (ix1 (row (t.cast N_0) p)) rfl).trans ?_
  rw [v1_eq]
  unfold cell
  refine shapeCast_apply (s := S32x8192) (t := S262144) _ _ _ _ ?_
  rw [Shape.rowMajor_val_one, Shape.rowMajor_val_two]
  show (row (t.cast N_0) p).val / 8192 * 8192 + (row (t.cast N_0) p).val % 8192 = (row (t.cast N_0) p).val
  omega

/-- Entry p of the second column's block at point t is the second table at flat row 2048·t + p. -/
theorem b2_val (c : Dev nD) (t : Fin cfg0.N) (p : Fin 2048) :
    b2 m c t (ix1 p) = m ((c.tc : Thread nD τ).loc main_arg1) (cell (row (t.cast N_0) p)) := by
  refine (b2_read m c t p (ix1 (row (t.cast N_0) p)) rfl).trans ?_
  rw [v2_eq]
  unfold cell
  refine shapeCast_apply (s := S32x8192) (t := S262144) _ _ _ _ ?_
  rw [Shape.rowMajor_val_one, Shape.rowMajor_val_two]
  show (row (t.cast N_0) p).val / 8192 * 8192 + (row (t.cast N_0) p).val % 8192 = (row (t.cast N_0) p).val
  omega

/-- The first layer's table block is the argument table (narrowing is the identity over the extended reals). -/
theorem b3_eq (c : Dev nD) (t : Fin cfg0.N) :
    (b3 m c t : S5x256.Idx → EReal) = m ((c.tc : Thread nD τ).loc main_arg3) := by
  funext j
  refine (b3_read m c t j).trans ?_
  rw [v3_eq]
  rfl

theorem b4_eq (c : Dev nD) (t : Fin cfg0.N) :
    (b4 m c t : S256.Idx → EReal) = m ((c.tc : Thread nD τ).loc main_arg4) := by
  funext j
  refine (b4_read m c t j).trans ?_
  rw [V_main_arg4]

theorem b5_eq (c : Dev nD) (t : Fin cfg0.N) :
    (b5 m c t : S256x256.Idx → EReal) = m ((c.tc : Thread nD τ).loc main_arg5) := by
  funext j
  refine (b5_read m c t j).trans ?_
  rw [v4_eq]
  rfl

theorem b6_eq (c : Dev nD) (t : Fin cfg0.N) :
    (b6 m c t : S256.Idx → EReal) = m ((c.tc : Thread nD τ).loc main_arg6) := by
  funext j
  refine (b6_read m c t j).trans ?_
  rw [V_main_arg6]

theorem b7_eq (c : Dev nD) (t : Fin cfg0.N) :
    (b7 m c t : S256x1.Idx → EReal) = m ((c.tc : Thread nD τ).loc main_arg7) := by
  funext j
  refine (b7_read m c t j).trans ?_
  rw [v5_eq]
  rfl

theorem b8_eq (c : Dev nD) (t : Fin cfg0.N) :
    (b8 m c t : S1.Idx → EReal) = m ((c.tc : Thread nD τ).loc main_arg8) := by
  funext j
  refine (b8_read m c t j).trans ?_
  rw [V_main_arg8]

/-- The first transposed table's block at (k, i) is the first layer's argument table at (i, k). -/
theorem b9_val (c : Dev nD) (t : Fin cfg0.N) (k : Fin 256) (i : Fin 5) :
    b9 m c t (ix2 k i) = m ((c.tc : Thread nD τ).loc main_arg3) (ix2 i k) := by
  refine (b9_read m c t (ix2 k i)).trans ?_
  rw [v6_eq]
  refine (transpose_apply _ _ _ _ (ix2 i k) (fun b => match b with | ⟨0, _⟩ => rfl | ⟨1, _⟩ => rfl)).trans ?_
  rfl

/-- The second transposed table's block at (k, j) is the second layer's argument table at (j, k). -/
theorem b10_val (c : Dev nD) (t : Fin cfg0.N) (k j : Fin 256) :
    b10 m c t (ix2 k j) = m ((c.tc : Thread nD τ).loc main_arg5) (ix2 j k) := by
  refine (b10_read m c t (ix2 k j)).trans ?_
  rw [v7_eq]
  refine (transpose_apply _ _ _ _ (ix2 j k) (fun b => match b with | ⟨0, _⟩ => rfl | ⟨1, _⟩ => rfl)).trans ?_
  rfl

/-- Eight arrays that are the six argument arrays, the last two read across, hold the arguments' weights. -/
theorem ofArrays_eq_ofArgs (w1 : (⟨2, ![5, 256]⟩ : Shape).Idx → EReal) (c1 : (⟨1, ![256]⟩ : Shape).Idx → EReal)
    (w2 : (⟨2, ![256, 256]⟩ : Shape).Idx → EReal) (c2 : (⟨1, ![256]⟩ : Shape).Idx → EReal)
    (w3 : (⟨2, ![256, 1]⟩ : Shape).Idx → EReal) (c3 : (⟨1, ![1]⟩ : Shape).Idx → EReal)
    (w1t : (⟨2, ![256, 5]⟩ : Shape).Idx → EReal) (w2t : (⟨2, ![256, 256]⟩ : Shape).Idx → EReal)
    (a1 : (⟨2, ![5, 256]⟩ : Shape).Idx → EReal) (d1 : (⟨1, ![256]⟩ : Shape).Idx → EReal)
    (a2 : (⟨2, ![256, 256]⟩ : Shape).Idx → EReal) (d2 : (⟨1, ![256]⟩ : Shape).Idx → EReal)
    (a3 : (⟨2, ![256, 1]⟩ : Shape).Idx → EReal) (d3 : (⟨1, ![1]⟩ : Shape).Idx → EReal)
    (h1 : w1 = a1) (hc1 : c1 = d1) (h2 : w2 = a2) (hc2 : c2 = d2) (h3 : w3 = a3) (hc3 : c3 = d3)
    (h1t : ∀ (k : Fin 256) (i : Fin 5), w1t (ix2 k i) = a1 (ix2 i k))
    (h2t : ∀ k j : Fin 256, w2t (ix2 k j) = a2 (ix2 j k)) :
    ofArrays w1 c1 w2 c2 w3 c3 w1t w2t = ofArgs a1 d1 a2 d2 a3 d3 := by
  subst h1 hc1 h2 hc2 h3 hc3
  unfold ofArrays ofArgs
  rw [Weights.mk.injEq]
  exact ⟨rfl, rfl, rfl, rfl, rfl, rfl, funext fun k => funext fun i => h1t k i, funext fun k => funext fun j => h2t k j⟩

/-- Row p of the points' block at point t is flat row 2048·t + p. -/
theorem b0_row (c : Dev nD) (t : Fin cfg0.N) (p : Fin 2048) : rowOf (b0 m c t) p = argX m c (row (t.cast N_0) p) :=
  funext fun k => b0_val m c t p k

/-- Entry p of the two columns' blocks at point t: their difference is the difference at flat row 2048·t + p. -/
theorem b12_diff (c : Dev nD) (t : Fin cfg0.N) (p : Fin 2048) :
    b1 m c t (ix1 p) - b2 m c t (ix1 p) = argD m c (row (t.cast N_0) p) := by
  rw [b1_val, b2_val]
  rfl

/-- The weight blocks at any point are the arguments' weights. -/
theorem wts_blocks (c : Dev nD) (t : Fin cfg0.N) :
    ofArrays (b3 m c t) (b4 m c t) (b5 m c t) (b6 m c t) (b7 m c t) (b8 m c t) (b9 m c t) (b10 m c t) = argW m c :=
  ofArrays_eq_ofArgs _ _ _ _ _ _ _ _ _ _ _ _ _ _ (b3_eq m c t) (b4_eq m c t) (b5_eq m c t) (b6_eq m c t) (b7_eq m c t) (b8_eq m c t)
    (b9_val m c t) (b10_val m c t)

end Cert.KernelIdeal.Blocks

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KPayFwd.lean ====
/-
  The forward pass inside one block, read at an entry: the body's first hidden layer, second hidden layer and value at row p
  of the block are the network's at that row (the casts to the narrower float format are the identity over the extended
  reals, a matrix product into a zero accumulator is the plain sum over the contracted index), and the same for the
  first hidden layer at the row with the step added to its first coordinate (the body's select on the column number).
-/
import proofs.«165616_j13804024889406_1_alg».proof.Proof.Gen.KernelIdeal.Skeleton
import proofs.«165616_j13804024889406_1_alg».proof.Proof.Net
import proofs.«165616_j13804024889406_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayFwd

open Idealize.ShloMosaic Idealize.ShloMosaic.ValueIdx Cert.KernelIdeal Cert.KernelIdeal.Gen Cert.Net

variable (x0 : FVec Ideal S2048x5 .f32) (x1 x2 : FVec Ideal S2048 .f32) (x3 : FVec Ideal S5x256 .bf16) (x4 : FVec Ideal S256 .f32)
  (x5 : FVec Ideal S256x256 .bf16) (x6 : FVec Ideal S256 .f32) (x7 : FVec Ideal S256x1 .bf16) (x8 : FVec Ideal S1 .f32)
  (x9 : FVec Ideal S256x5 .bf16) (x10 : FVec Ideal S256x256 .bf16)

/-- The weights the body is handed: its six weight blocks and the two transposed tables. -/
abbrev wts : Weights := ofArrays x3 x4 x5 x6 x7 x8 x9 x10

/-! ### The layout steps and the pointwise hyperbolic tangent, read at an entry -/

/-- The vector hyperbolic tangent is taken entry by entry. -/
theorem tanh_at {s : Shape} {φ : FTy} (a : FVec Ideal s φ) (i : s.Idx) : tanh a i = Ideal.tanh (a i) := rfl

/-- A bias of length 256 laid out as one row and repeated down the 2048 rows reads, at (p, q), its entry q. -/
theorem bias_at (b : FVec Ideal S256 .f32) (p : Fin 2048) (q : Fin 256) :
    broadcastTo S2048x256 (shapeCast S1x256 b shapeCasts_S256_S1x256) broadcasts_S1x256_S2048x256 (ix2 p q) = b (ix1 q) :=
  (broadcastTo_1b_ab_apply _ _ p q).trans (shapeCast_a_1a_apply b _ 0 q)

/-- The one-entry bias laid out as a 1 × 1 table and repeated down the 2048 rows reads its entry everywhere. -/
theorem bias1_at (b : FVec Ideal S1 .f32) (p : Fin 2048) (u : Fin 1) :
    broadcastTo S2048x1 (shapeCast S1x1 b shapeCasts_S1_S1x1) broadcasts_S1x1_S2048x1 (ix2 p u) = b (ix1 (0 : Fin 1)) := by
  have hu : u = 0 := Subsingleton.elim _ _
  subst hu
  exact (broadcastTo_1b_ab_apply _ _ p (0 : Fin 1)).trans (shapeCast_a_1a_apply b _ 0 0)

/-- A table of one column read as a vector: entry i is entry (i, 0). -/
theorem col_at {α : Type} {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    rw [Nat.mul_one, Nat.add_zero])

/-- The body's re-typings of its loads are the loads. -/
theorem pay3_eq : k0_pay3 (F := Ideal) x0 = x0 := by unfold k0_pay3; exact shapeCast_self _ _
theorem pay4_eq : k0_pay4 (F := Ideal) x3 = x3 := by unfold k0_pay4; exact shapeCast_self _ _
theorem pay5_eq : k0_pay5 (F := Ideal) x5 = x5 := by unfold k0_pay5; exact shapeCast_self _ _
theorem pay6_eq : k0_pay6 (F := Ideal) x7 = x7 := by unfold k0_pay6; exact shapeCast_self _ _
theorem pay7_eq : k0_pay7 (F := Ideal) x9 = x9 := by unfold k0_pay7; exact shapeCast_self _ _

/-! ### The three layers -/

theorem pay9_apply (p : Fin 2048) (q : Fin 256) :
    k0_pay9 (F := Ideal) x0 x3 x4 (ix2 p q) = (wts x3 x4 x5 x6 x7 x8 x9 x10).hid1 (rowOf x0 p) q := by
  unfold k0_pay9
  refine (tanh_at _ _).trans ?_
  refine congrArg Ideal.tanh ?_
  refine (addf_apply _ _ _).trans ?_
  refine congrArg₂ (· + ·) ?_ (bias_at x4 p q)
  refine (Cert.LibPlainDot.matmul_zero_apply dot_S2048x5_S5x256_S2048x256_1_0_0_1_n_n rfl rfl rfl rfl rfl rfl none _ _ p q).trans ?_
  refine Finset.sum_congr rfl fun k _ => ?_
  rw [truncf_apply, pay3_eq, pay4_eq]
  rfl

theorem pay10_apply (p : Fin 2048) (q : Fin 256) :
    k0_pay10 (F := Ideal) x0 x3 x5 x4 x6 (ix2 p q) = (wts x3 x4 x5 x6 x7 x8 x9 x10).hid2 (rowOf x0 p) q := by
  unfold k0_pay10
  refine (tanh_at _ _).trans ?_
  refine congrArg Ideal.tanh ?_
  refine (addf_apply _ _ _).trans ?_
  refine congrArg₂ (· + ·) ?_ (bias_at x6 p q)
  refine (Cert.LibPlainDot.matmul_zero_apply dot_S2048x256_S256x256_S2048x256_1_0_0_1_n_n rfl rfl rfl rfl rfl rfl none _ _ p q).trans ?_
  refine Finset.sum_congr rfl fun k _ => ?_
  rw [truncf_apply, pay9_apply x0 x3 x4 x5 x6 x7 x8 x9 x10 p k, pay5_eq]
  rfl

theorem pay11_apply (p : Fin 2048) :
    k0_pay11 (F := Ideal) x0 x3 x5 x7 x4 x6 x8 (ix1 p) = (wts x3 x4 x5 x6 x7 x8 x9 x10).value (rowOf x0 p) := by
  unfold k0_pay11
  refine (col_at _ _ p).trans ?_
  refine (addf_apply _ _ _).trans ?_
  refine congrArg₂ (· + ·) ?_ (bias1_at x8 p 0)
  refine (Cert.LibPlainDot.matmul_zero_apply dot_S2048x256_S256x1_S2048x1_1_0_0_1_n_n rfl rfl rfl rfl rfl rfl none _ _ p (0 : Fin 1)).trans ?_
  refine Finset.sum_congr rfl fun k _ => ?_
  rw [truncf_apply, pay10_apply x0 x3 x4 x5 x6 x7 x8 x9 x10 p k, pay6_eq]
  rfl

theorem pay12_apply (j : Fin 256) :
    k0_pay12 (F := Ideal) x7 (ix1 j) = (wts x3 x4 x5 x6 x7 x8 x9 x10).W3 j := by
  unfold k0_pay12
  show shapeCast S256 (k0_pay6 (F := Ideal) x7) shapeCasts_S256x1_S256 (ix1 j) = _
  refine (col_at _ _ j).trans ?_
  rw [pay6_eq]
  rfl

/-! ### The shifted row -/

/-- The column number, as a 32-bit word, is the zero word exactly at column 0. -/
theorem col_bit : ∀ k : Fin 5, IntOp.cmpi .eq (BitVec.ofNat 32 k.val) 0#32 = if k = 0 then 1#1 else 0#1 := by decide

/-- The body's select on the column number: at column 0 the first table's entry, elsewhere the second's. -/
theorem select_col0_at {α : Type} (a b : S2048x5.Idx → α) (p : Fin 2048) (k : Fin 5) :
    select (cmpi .eq (iota .tc S2048x5 32 [1] iota_S2048x5_d1_w32) (broadcast S2048x5 0#32)) a b (ix2 p k)
      = if k = 0 then a (ix2 p k) else b (ix2 p k) := by
  refine (select_apply _ _ _ _).trans ?_
  have hc : cmpi .eq (iota .tc S2048x5 32 [1] iota_S2048x5_d1_w32) (broadcast S2048x5 0#32) (ix2 p k)
      = IntOp.cmpi .eq (BitVec.ofNat 32 k.val) 0#32 := by
    show IntOp.cmpi .eq (iota .tc S2048x5 32 [1] iota_S2048x5_d1_w32 (ix2 p k)) 0#32 = _
    rw [iota_single_apply]
  rw [hc, col_bit k]
  by_cases h : k = 0
  · rw [if_pos h, if_pos h]; exact select_one _ _
  · rw [if_neg h, if_neg h]; exact select_zero _ _

theorem pay16_apply (p : Fin 2048) (q : Fin 256) :
    k0_pay16 (F := Ideal) (k0_pay3 x0) (k0_pay4 x3) x4 (ix2 p q) = (wts x3 x4 x5 x6 x7 x8 x9 x10).hid1 (shift (rowOf x0 p)) q := by
  unfold k0_pay16
  refine (tanh_at _ _).trans ?_
  refine congrArg Ideal.tanh ?_
  refine (addf_apply _ _ _).trans ?_
  refine congrArg₂ (· + ·) ?_ (bias_at x4 p q)
  refine (Cert.LibPlainDot.matmul_zero_apply dot_S2048x5_S5x256_S2048x256_1_0_0_1_n_n rfl rfl rfl rfl rfl rfl none _ _ p q).trans ?_
  refine Finset.sum_congr rfl fun k _ => ?_
  rw [truncf_apply, select_col0_at, pay3_eq, pay4_eq]
  rfl

theorem pay18_apply (p : Fin 2048) (q : Fin 256) :
    k0_pay18 (F := Ideal) (k0_pay3 x0) (k0_pay4 x3) x4 (ix2 p q)
      = one - (wts x3 x4 x5 x6 x7 x8 x9 x10).hid1 (shift (rowOf x0 p)) q * (wts x3 x4 x5 x6 x7 x8 x9 x10).hid1 (shift (rowOf x0 p)) q := by
  unfold k0_pay18
  refine (subf_apply _ _ _).trans ?_
  refine congrArg₂ (· - ·) rfl ?_
  refine (mulf_apply _ _ _).trans ?_
  rw [pay16_apply x0 x3 x4 x5 x6 x7 x8 x9 x10 p q]

end Cert.KernelIdeal.PayFwd

end
-- ==== Proof.KPayBwd.lean ====
/-
  The backward pass inside one block, read at an entry: entries 0 and 3 of the gradient at row p, and the cotangent of the
  first hidden layer at the shifted row, are the network's (tanh' as 1 − h·h, the transposed tables as handed).
-/
import proofs.«165616_j13804024889406_1_alg».proof.Proof.Gen.KernelIdeal.Skeleton
import proofs.«165616_j13804024889406_1_alg».proof.Proof.Net
import proofs.«165616_j13804024889406_1_alg».proof.Proof.LibPlainDot
import proofs.«165616_j13804024889406_1_alg».proof.Proof.KPayFwd
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayBwd

open Idealize.ShloMosaic Idealize.ShloMosaic.ValueIdx Cert.KernelIdeal Cert.KernelIdeal.Gen Cert.Net

variable (x0 : FVec Ideal S2048x5 .f32) (x1 x2 : FVec Ideal S2048 .f32) (x3 : FVec Ideal S5x256 .bf16) (x4 : FVec Ideal S256 .f32)
  (x5 : FVec Ideal S256x256 .bf16) (x6 : FVec Ideal S256 .f32) (x7 : FVec Ideal S256x1 .bf16) (x8 : FVec Ideal S1 .f32)
  (x9 : FVec Ideal S256x5 .bf16) (x10 : FVec Ideal S256x256 .bf16)

open Cert.KernelIdeal.PayFwd

/-! ### Layout steps read at an entry -/

/-- An `[a, 1]` array cast to `[a]` reads, at `i`, the operand at `(i, 0)`: the two have the same row-major position. -/
theorem bwd_shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of 256 numbers laid as one row and repeated down 2048 rows reads, at `(p, q)`, the vector at `q`. -/
theorem bwd_rowOfVec_apply (v : FVec Ideal S256 .f32) (p : Fin 2048) (q : Fin 256) :
    broadcastTo S2048x256 (shapeCast S1x256 v shapeCasts_S256_S1x256) broadcasts_S1x256_S2048x256 (ix2 p q) = v (ix1 q) :=
  (broadcastTo_1b_ab_apply _ _ p q).trans (shapeCast_a_1a_apply v _ 0 q)

/-- Column `c` of a 2048 × 5 table, cut out as a 2048 × 1 block and flattened, reads at `p` the table at `(p, c)`. -/
theorem bwd_column_apply (c : Fin 5) (X : FVec Ideal S2048x5 .f32) (h : S2048x5.Slices ![0, c.val] S2048x1) (p : Fin 2048) :
    shapeCast S2048 (extractStridedSlice S2048x1 ![0, c.val] X h) shapeCasts_S2048x1_S2048 (ix1 p) = X (ix2 p c) :=
  (bwd_shapeCast_a1_a_apply _ _ p).trans (slice2_axis1_apply c.val X h p (0 : Fin 1) c rfl)

/-! ### One step back through a tanh layer -/

/-- The cotangent `g ∘ (1 − h ∘ h)` of a tanh layer's input, carried through a 256 × 256 table: entry `(p, q)` of the
    product into a zero accumulator is the sum over the contracted index (the cast to the narrower format is the identity
    over the extended reals). -/
theorem back256_apply (g h : FVec Ideal S2048x256 .f32) (w : FVec Ideal S256x256 .bf16) (p : Fin 2048) (q : Fin 256) :
    matmul dot_S2048x256_S256x256_S2048x256_1_0_0_1_n_n none
        (truncf .bf16 (mulf g (subf (broadcast S2048x256 (Scalar.ofBits (F := Ideal) .f32 0x3F800000#32)) (mulf h h))) bitsLt_bf16_f32)
        w (constant S2048x256 .f32 0x00000000#32) (ix2 p q)
      = ∑ k : Fin 256, (g (ix2 p k) * (one - h (ix2 p k) * h (ix2 p k))) * w (ix2 k q) :=
  Cert.LibPlainDot.matmul_zero_apply dot_S2048x256_S256x256_S2048x256_1_0_0_1_n_n rfl rfl rfl rfl rfl rfl none _ w p q

/-- The same through the 256 × 5 table. -/
theorem back5_apply (g h : FVec Ideal S2048x256 .f32) (w : FVec Ideal S256x5 .bf16) (p : Fin 2048) (i : Fin 5) :
    matmul dot_S2048x256_S256x5_S2048x5_1_0_0_1_n_n none
        (truncf .bf16 (mulf g (subf (broadcast S2048x256 (Scalar.ofBits (F := Ideal) .f32 0x3F800000#32)) (mulf h h))) bitsLt_bf16_f32)
        w (constant S2048x5 .f32 0x00000000#32) (ix2 p i)
      = ∑ k : Fin 256, (g (ix2 p k) * (one - h (ix2 p k) * h (ix2 p k))) * w (ix2 k i) :=
  Cert.LibPlainDot.matmul_zero_apply dot_S2048x256_S256x5_S2048x5_1_0_0_1_n_n rfl rfl rfl rfl rfl rfl none _ w p i

/-- The body's re-typing of the second transposed table is the table. -/
theorem bwd_pay8_eq : k0_pay8 (F := Ideal) x10 = x10 := shapeCast_self _ _

/-- The body's re-typing of the second layer's table is the table. -/
theorem bwd_pay5_eq : k0_pay5 (F := Ideal) x5 = x5 := shapeCast_self _ _

/-! ### The gradient block -/

/-- The cotangent of the first hidden layer at row `p`: the last layer's column times `1 − h₂·h₂`, carried through the
    second transposed table. -/
theorem cot1_apply (p : Fin 2048) (k : Fin 256) :
    matmul dot_S2048x256_S256x256_S2048x256_1_0_0_1_n_n none
        (truncf .bf16
          (mulf
            (broadcastTo S2048x256 (shapeCast S1x256 (k0_pay12 (F := Ideal) x7) shapeCasts_S256_S1x256) broadcasts_S1x256_S2048x256)
            (subf (broadcast S2048x256 (Scalar.ofBits (F := Ideal) .f32 0x3F800000#32))
              (mulf (k0_pay10 x0 x3 x5 x4 x6) (k0_pay10 x0 x3 x5 x4 x6))))
          bitsLt_bf16_f32)
        (k0_pay8 x10) (constant S2048x256 .f32 0x00000000#32) (ix2 p k)
      = (wts x3 x4 x5 x6 x7 x8 x9 x10).dh1 (rowOf x0 p) k := by
  refine (back256_apply _ _ _ p k).trans ?_
  unfold Weights.dh1
  refine Finset.sum_congr rfl fun j _ => ?_
  rw [bwd_pay8_eq, bwd_rowOfVec_apply, pay12_apply x3 x4 x5 x6 x7 x8 x9 x10 j, pay10_apply x0 x3 x4 x5 x6 x7 x8 x9 x10 p j]
  rfl

/-- Entry `(p, i)` of the body's 2048 × 5 gradient block is entry `i` of the network's gradient at row `p`. -/
theorem pay13_apply (p : Fin 2048) (i : Fin 5) :
    k0_pay13 (F := Ideal) (k0_pay7 x9) (k0_pay8 x10) (k0_pay9 x0 x3 x4) (k0_pay10 x0 x3 x5 x4 x6) (k0_pay12 x7) (ix2 p i)
      = (wts x3 x4 x5 x6 x7 x8 x9 x10).grad (rowOf x0 p) i := by
  unfold k0_pay13
  refine (back5_apply _ _ _ p i).trans ?_
  unfold Weights.grad
  refine Finset.sum_congr rfl fun k _ => ?_
  rw [pay7_eq]
  refine congrArg (· * x9 (ix2 k i)) ?_
  unfold Weights.dz1
  rw [pay9_apply x0 x3 x4 x5 x6 x7 x8 x9 x10 p k]
  exact congrArg (· * _) (cot1_apply x0 x3 x4 x5 x6 x7 x8 x9 x10 p k)

/-! ### The shifted rows -/

/-- The second hidden layer at the row with the step added to its first coordinate. -/
theorem hid2s_apply (p : Fin 2048) (k : Fin 256) :
    tanh (addf
        (matmul dot_S2048x256_S256x256_S2048x256_1_0_0_1_n_n none
          (truncf .bf16 (k0_pay16 (F := Ideal) (k0_pay3 x0) (k0_pay4 x3) x4) bitsLt_bf16_f32) (k0_pay5 x5)
          (constant S2048x256 .f32 0x00000000#32))
        (broadcastTo S2048x256 (shapeCast S1x256 x6 shapeCasts_S256_S1x256) broadcasts_S1x256_S2048x256)) (ix2 p k)
      = (wts x3 x4 x5 x6 x7 x8 x9 x10).hid2 (shift (rowOf x0 p)) k := by
  unfold Weights.hid2
  refine congrArg Ideal.tanh ?_
  refine congrArg₂ (· + ·) ?_ (bwd_rowOfVec_apply x6 p k)
  refine (Cert.LibPlainDot.matmul_zero_apply dot_S2048x256_S256x256_S2048x256_1_0_0_1_n_n rfl rfl rfl rfl rfl rfl none _ _ p k).trans ?_
  refine Finset.sum_congr rfl fun j _ => ?_
  rw [truncf_apply, pay16_apply x0 x3 x4 x5 x6 x7 x8 x9 x10 p j, bwd_pay5_eq]
  rfl

/-! ### The three entries the block hands on -/

theorem pay14_apply (p : Fin 2048) :
    k0_pay14 (F := Ideal) (k0_pay7 x9) (k0_pay8 x10) (k0_pay9 x0 x3 x4) (k0_pay10 x0 x3 x5 x4 x6) (k0_pay12 x7) (ix1 p)
      = (wts x3 x4 x5 x6 x7 x8 x9 x10).grad (rowOf x0 p) 0 := by
  unfold k0_pay14
  exact (bwd_column_apply 0 _ _ p).trans (pay13_apply x0 x3 x4 x5 x6 x7 x8 x9 x10 p 0)

theorem pay15_apply (p : Fin 2048) :
    k0_pay15 (F := Ideal) (k0_pay7 x9) (k0_pay8 x10) (k0_pay9 x0 x3 x4) (k0_pay10 x0 x3 x5 x4 x6) (k0_pay12 x7) (ix1 p)
      = (wts x3 x4 x5 x6 x7 x8 x9 x10).grad (rowOf x0 p) 3 := by
  unfold k0_pay15
  exact (bwd_column_apply 3 _ _ p).trans (pay13_apply x0 x3 x4 x5 x6 x7 x8 x9 x10 p 3)

theorem pay17_apply (p : Fin 2048) (q : Fin 256) :
    k0_pay17 (F := Ideal) (k0_pay3 x0) (k0_pay4 x3) (k0_pay5 x5) (k0_pay6 x7) (k0_pay8 x10) x4 x6 (ix2 p q)
      = (wts x3 x4 x5 x6 x7 x8 x9 x10).dh1 (shift (rowOf x0 p)) q := by
  unfold k0_pay17
  refine (back256_apply _ _ _ p q).trans ?_
  unfold Weights.dh1
  refine Finset.sum_congr rfl fun k _ => ?_
  rw [bwd_pay8_eq, bwd_rowOfVec_apply, hid2s_apply x0 x3 x4 x5 x6 x7 x8 x9 x10 p k]
  exact congrArg (· * _ * _) (pay12_apply x3 x4 x5 x6 x7 x8 x9 x10 k)

end Cert.KernelIdeal.PayBwd

end
-- ==== Proof.KTile.lean ====
/-
  What the body adds to its one-cell accumulator at a grid point: the block's sum of squared residuals plus its sum of
  squared differences (`tile_apply`), the reset value and the final division.
-/
import proofs.«165616_j13804024889406_1_alg».proof.Proof.Gen.KernelIdeal.Skeleton
import proofs.«165616_j13804024889406_1_alg».proof.Proof.Net
import proofs.«165616_j13804024889406_1_alg».proof.Proof.KPayFwd
import proofs.«165616_j13804024889406_1_alg».proof.Proof.KPayBwd
import proofs.«165616_j13804024889406_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Idealize.ShloMosaic Idealize.ShloMosaic.ValueIdx Cert.KernelIdeal Cert.KernelIdeal.Gen Cert.Net

open Cert.KernelIdeal.PayFwd Cert.KernelIdeal.PayBwd

/-! ### The layout steps of the accumulating store, each read at an entry -/

/-- Column c of a 2048 × 5 table, sliced out and flattened, read at row p. -/
theorem col_apply {α : Type} (x : S2048x5.Idx → α) (off : Fin 2 → Nat) (c : Fin 5) (h0 : off 0 = 0) (h1 : off 1 = c.val)
    (hs : S2048x5.Slices off S2048x1) (hc : S2048x1.ShapeCasts S2048) (p : Fin 2048) :
    shapeCast S2048 (extractStridedSlice S2048x1 off x hs) hc (ix1 p) = x (ix2 p c) := by
  refine (shapeCast_apply _ hc (ix1 p) (ix2 p (0 : Fin 1)) ?_).trans ?_
  · rw [Shape.rowMajor_val_two, Shape.rowMajor_val_one]
    show p.val * 1 + 0 = p.val
    omega
  · refine extractStridedSlice_apply off x hs (ix2 p (0 : Fin 1)) (ix2 p c) fun a => ?_
    match a with
    | ⟨0, _⟩ => show p.val = off 0 + p.val; rw [h0]; omega
    | ⟨1, _⟩ => show c.val = off 1 + 0; rw [h1]; rfl

/-- The sum over the lanes of a vector of 2048 entries, as the body takes it: viewed as one row, summed along the row,
    viewed as a one-cell table and read at its cell. -/
theorem laneSum_apply (w : FVec Ideal S2048 .f32) (hc : S2048.ShapeCasts S1x2048) (hr : S1x2048.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction (F := Ideal) .add [1] S1 (shapeCast S1x2048 w hc) 0x00000000#32 hr hφ hacc) hc') hp
      = ∑ p : Fin 2048, w (ix1 p) := by
  unfold extractAt
  refine (shapeCast_apply _ hc' _ (ix1 (0 : Fin 1)) ?_).trans ?_
  · rw [Shape.rowMajor_val_two, Shape.rowMajor_val_one]; rfl
  refine (Ideal.multiReduction_add_single _ _ hr hφ hacc _).trans ?_
  refine Finset.sum_congr rfl fun k _ => ?_
  refine shapeCast_apply w hc _ (ix1 k) ?_
  rw [Shape.rowMajor_val_one, Shape.rowMajor_val_two]
  show k.val = 0 * 2048 + k.val
  omega

/-- The product of a 2048 × 256 table with a 256 × 5 table into the zero table, read at an entry: the sum over the
    contracted index. -/
theorem dot5_apply (l : FVec Ideal S2048x256 .bf16) (r : FVec Ideal S256x5 .bf16) (p : Fin 2048) (c : Fin 5) :
    matmul dot_S2048x256_S256x5_S2048x5_1_0_0_1_n_n none l r (constant S2048x5 .f32 0x00000000#32) (ix2 p c)
      = ∑ k : Fin 256, l (ix2 p k) * r (ix2 k c) :=
  Cert.LibPlainDot.matmul_zero_apply _ rfl rfl rfl rfl rfl rfl none l r p c

/-- The tail of the accumulating store: the accumulator's cell plus the sum of the two lane sums. -/
theorem tail_apply (A : FVec Ideal S1x1 .f32) (w1 w2 : FVec Ideal S2048 .f32) (h1 : S1x1.ShapeCasts S1x1)
    (hc : S2048.ShapeCasts S1x2048) (hr : S1x2048.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    addf (shapeCast S1x1 A h1)
        (broadcast S1x1 (Scalar.addf
          (extractAt ![0, 0] (shapeCast S1x1 (multiReduction (F := Ideal) .add [1] S1 (shapeCast S1x2048 w1 hc) 0x00000000#32 hr hφ hacc) hc') hp)
          (extractAt ![0, 0] (shapeCast S1x1 (multiReduction (F := Ideal) .add [1] S1 (shapeCast S1x2048 w2 hc) 0x00000000#32 hr hφ hacc) hc') hp)))
        (ix2 (0 : Fin 1) (0 : Fin 1))
      = A (ix2 (0 : Fin 1) (0 : Fin 1)) + ((∑ p : Fin 2048, w1 (ix1 p)) + (∑ p : Fin 2048, w2 (ix1 p))) := by
  rw [addf_apply, shapeCast_self, broadcast_apply, laneSum_apply, laneSum_apply]
  rfl

/-- The accumulating store's value as the body composes it from its eleven loaded blocks and the accumulator's contents. -/
def tile {F : FTy → Type} [FloatOps F] (x0 : Vec F S2048x5 .f32) (x1 x2 : Vec F S2048 .f32) (x3 : Vec F S5x256 .bf16) (x4 : Vec F S256 .f32)
    (x5 : Vec F S256x256 .bf16) (x6 : Vec F S256 .f32) (x7 : Vec F S256x1 .bf16) (x8 : Vec F S1 .f32)
    (x9 : Vec F S256x5 .bf16) (x10 : Vec F S256x256 .bf16) (acc : Vec F S1x1 .f32) : FVec F S1x1 .f32 :=
  k0_pay19 (k0_pay3 x0) (k0_pay7 x9) (k0_pay11 x0 x3 x5 x7 x4 x6 x8)
    (k0_pay14 (k0_pay7 x9) (k0_pay8 x10) (k0_pay9 x0 x3 x4) (k0_pay10 x0 x3 x5 x4 x6) (k0_pay12 x7))
    (k0_pay15 (k0_pay7 x9) (k0_pay8 x10) (k0_pay9 x0 x3 x4) (k0_pay10 x0 x3 x5 x4 x6) (k0_pay12 x7))
    (k0_pay17 (k0_pay3 x0) (k0_pay4 x3) (k0_pay5 x5) (k0_pay6 x7) (k0_pay8 x10) x4 x6)
    (k0_pay18 (k0_pay3 x0) (k0_pay4 x3) x4) x1 x2 acc

variable (x0 : FVec Ideal S2048x5 .f32) (x1 x2 : FVec Ideal S2048 .f32) (x3 : FVec Ideal S5x256 .bf16) (x4 : FVec Ideal S256 .f32)
  (x5 : FVec Ideal S256x256 .bf16) (x6 : FVec Ideal S256 .f32) (x7 : FVec Ideal S256x1 .bf16) (x8 : FVec Ideal S1 .f32)
  (x9 : FVec Ideal S256x5 .bf16) (x10 : FVec Ideal S256x256 .bf16)

/-- The accumulating store's value, from the values it is handed: the accumulator's cell plus the sum over the block's
    rows of the squared residual (its gradient entries, value, and shifted gradient's first entry as handed) plus the sum of
    the squared differences. -/
theorem pay19_apply (v4 : FVec Ideal S2048x5 .f32) (v12 : FVec Ideal S256x5 .bf16) (v35 v53 v55 : FVec Ideal S2048 .f32)
    (v83 v86 : FVec Ideal S2048x256 .f32) (v118 v120 : FVec Ideal S2048 .f32) (v128 : FVec Ideal S1x1 .f32) :
    k0_pay19 (F := Ideal) v4 v12 v35 v53 v55 v83 v86 v118 v120 v128 (ix2 (0 : Fin 1) (0 : Fin 1))
      = v128 (ix2 (0 : Fin 1) (0 : Fin 1))
        + ((∑ p : Fin 2048,
              (((v55 (ix1 p) + ((((half * v4 (ix2 p 2)) * v4 (ix2 p 2)) * v4 (ix2 p 0)) * v4 (ix2 p 0))
                    * Ideal.div ((∑ k : Fin 256, (v83 (ix2 p k) * v86 (ix2 p k)) * v12 (ix2 k 0)) - v53 (ix1 p)) step)
                  + ((v4 (ix2 p 4) * v4 (ix2 p 0)) * v53 (ix1 p))) - v4 (ix2 p 4) * v35 (ix1 p))
              * (((v55 (ix1 p) + ((((half * v4 (ix2 p 2)) * v4 (ix2 p 2)) * v4 (ix2 p 0)) * v4 (ix2 p 0))
                    * Ideal.div ((∑ k : Fin 256, (v83 (ix2 p k) * v86 (ix2 p k)) * v12 (ix2 k 0)) - v53 (ix1 p)) step)
                  + ((v4 (ix2 p 4) * v4 (ix2 p 0)) * v53 (ix1 p))) - v4 (ix2 p 4) * v35 (ix1 p)))
          + (∑ p : Fin 2048, (v118 (ix1 p) - v120 (ix1 p)) * (v118 (ix1 p) - v120 (ix1 p)))) := by
  -- the store's value is the tail over the two squared vectors; then each squared vector entry by entry
  unfold k0_pay19
  refine (tail_apply _ _ _ _ _ _ _ _ _ _).trans ?_
  refine congrArg₂ (· + ·) rfl (congrArg₂ (· + ·) (Finset.sum_congr rfl fun p _ => ?_) (Finset.sum_congr rfl fun p _ => ?_))
  · simp only [mulf_apply, subf_apply, addf_apply, divf_apply, broadcast_apply, col_apply _ ![0, 2] 2 rfl rfl,
      col_apply _ ![0, 0] 0 rfl rfl, col_apply _ ![0, 4] 4 rfl rfl, dot5_apply, truncf_apply]
    rfl
  · simp only [mulf_apply, subf_apply, shapeCast_self]

/-- One grid point adds its block's contribution to the accumulator's cell. -/
theorem tile_apply (acc : FVec Ideal S1x1 .f32) :
    tile (F := Ideal) x0 x1 x2 x3 x4 x5 x6 x7 x8 x9 x10 acc (ix2 (0 : Fin 1) (0 : Fin 1))
      = acc (ix2 (0 : Fin 1) (0 : Fin 1))
        + ((∑ p : Fin 2048, (wts x3 x4 x5 x6 x7 x8 x9 x10).resid (rowOf x0 p) * (wts x3 x4 x5 x6 x7 x8 x9 x10).resid (rowOf x0 p))
          + (∑ p : Fin 2048, (x1 (ix1 p) - x2 (ix1 p)) * (x1 (ix1 p) - x2 (ix1 p)))) := by
  unfold tile
  refine (pay19_apply _ _ _ _ _ _ _ _ _ _).trans ?_
  refine congrArg₂ (· + ·) rfl (congrArg₂ (· + ·) (Finset.sum_congr rfl fun p _ => ?_) rfl)
  -- the handed values are the network's: gradient entries 0 and 3, the value, and under the inner sum the shifted row's
  -- cotangent and 1 − h·h; the re-typed loads are the loads; what is left is the residual written out
  simp only [pay14_apply x0 x3 x4 x5 x6 x7 x8 x9 x10, pay15_apply x0 x3 x4 x5 x6 x7 x8 x9 x10,
    pay17_apply x0 x3 x4 x5 x6 x7 x8 x9 x10, pay18_apply x0 x3 x4 x5 x6 x7 x8 x9 x10,
    pay11_apply x0 x3 x4 x5 x6 x7 x8 x9 x10]
  simp only [pay3_eq, pay7_eq]
  rfl

/-- The reset stores the zero word. -/
theorem pay2_apply : k0_pay2 (F := Ideal) (ix2 (0 : Fin 1) (0 : Fin 1)) = zero := by
  rfl

/-- The last point divides the accumulator's cell by the count. -/
theorem pay1_apply (v : FVec Ideal S1x1 .f32) :
    k0_pay1 (F := Ideal) v (ix2 (0 : Fin 1) (0 : Fin 1)) = Ideal.div (v (ix2 (0 : Fin 1) (0 : Fin 1))) count := by
  unfold k0_pay1
  rw [divf_apply, shapeCast_self]
  rfl

end Cert.KernelIdeal.Tile

end
-- ==== Proof.KPieces.lean ====
/-
  What each control case of the body leaves in the one-cell accumulator, as a value: the first point stores the zero, reads
  it back and adds its block; a middle point adds its block to what the point before left; the last point adds its block
  and then divides. Each case's stores cover the cell, so the cell holds the last store's value; a load of the cell after
  a store reads that store's value; the loads of the input buffers read the blocks they hold.
-/
import proofs.«165616_j13804024889406_1_alg».proof.Proof.Gen.KernelIdeal.Frame
import proofs.«165616_j13804024889406_1_alg».proof.Proof.Net
import proofs.«165616_j13804024889406_1_alg».proof.Proof.KTile
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Pieces

open Idealize.ShloMosaic.ValueIdx Cert.KernelIdeal Cert.KernelIdeal.Gen Cert.Net

open Cert.KernelIdeal.Tile

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

theorem out_B (c : Dev nD) (i : grid0.Coords) (arg1 : Memref sig .tc .vmem S2048x5 .f32) (harg1 : arg1.IsWhole) (arg2 : Memref sig .tc .vmem S2048 .f32) (harg2 : arg2.IsWhole) (arg3 : Memref sig .tc .vmem S2048 .f32) (harg3 : arg3.IsWhole) (arg4 : Memref sig .tc .vmem S5x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S256x5 .bf16) (harg10 : arg10.IsWhole) (arg11 : Memref sig .tc .vmem S256x256 .bf16) (harg11 : arg11.IsWhole) (arg12 : Memref sig .tc .vmem S1x1 .f32) (harg12 : arg12.IsWhole) (hc0 : ¬cond0_0 i) (hc1 : ¬cond0_1 i)
    (x0 : Vec F S2048x5 .f32) (x1 : Vec F S2048 .f32) (x2 : Vec F S2048 .f32) (x3 : Vec F S5x256 .bf16) (x4 : Vec F S256 .f32) (x5 : Vec F S256x256 .bf16) (x6 : Vec F S256 .f32) (x7 : Vec F S256x1 .bf16) (x8 : Vec F S1 .f32) (x9 : Vec F S256x5 .bf16) (x10 : Vec F S256x256 .bf16) (xo11 : Vec F S1x1 .f32) :
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo11
      = tile x0 x1 x2 x3 x4 x5 x6 x7 x8 x9 x10 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x5) hz, View.ld_unit_zero (S := S1x1) hz, View.ld_unit_zero (S := S5x256) hz, View.ld_unit_zero (S := S256x256) hz, View.ld_unit_zero (S := S256x1) hz, View.ld_unit_zero (S := S256x5) hz, View.ld_unit_zero (S := S2048) hz1, View.ld_unit_zero (S := S256) hz1, View.ld_unit_zero (S := S1) hz1]
  rfl

theorem out_A (c : Dev nD) (i : grid0.Coords) (arg1 : Memref sig .tc .vmem S2048x5 .f32) (harg1 : arg1.IsWhole) (arg2 : Memref sig .tc .vmem S2048 .f32) (harg2 : arg2.IsWhole) (arg3 : Memref sig .tc .vmem S2048 .f32) (harg3 : arg3.IsWhole) (arg4 : Memref sig .tc .vmem S5x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S256x5 .bf16) (harg10 : arg10.IsWhole) (arg11 : Memref sig .tc .vmem S256x256 .bf16) (harg11 : arg11.IsWhole) (arg12 : Memref sig .tc .vmem S1x1 .f32) (harg12 : arg12.IsWhole) (hc0 : cond0_0 i) (hc1 : ¬cond0_1 i)
    (x0 : Vec F S2048x5 .f32) (x1 : Vec F S2048 .f32) (x2 : Vec F S2048 .f32) (x3 : Vec F S5x256 .bf16) (x4 : Vec F S256 .f32) (x5 : Vec F S256x256 .bf16) (x6 : Vec F S256 .f32) (x7 : Vec F S256x1 .bf16) (x8 : Vec F S1 .f32) (x9 : Vec F S256x5 .bf16) (x10 : Vec F S256x256 .bf16) :
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10
      = tile x0 x1 x2 x3 x4 x5 x6 x7 x8 x9 x10 (k0_pay2 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x5) hz, View.ld_unit_zero (S := S1x1) hz, View.ld_unit_zero (S := S5x256) hz, View.ld_unit_zero (S := S256x256) hz, View.ld_unit_zero (S := S256x1) hz, View.ld_unit_zero (S := S256x5) hz, View.ld_unit_zero (S := S2048) hz1, View.ld_unit_zero (S := S256) hz1, View.ld_unit_zero (S := S1) hz1]
  rfl

theorem out_C (c : Dev nD) (i : grid0.Coords) (arg1 : Memref sig .tc .vmem S2048x5 .f32) (harg1 : arg1.IsWhole) (arg2 : Memref sig .tc .vmem S2048 .f32) (harg2 : arg2.IsWhole) (arg3 : Memref sig .tc .vmem S2048 .f32) (harg3 : arg3.IsWhole) (arg4 : Memref sig .tc .vmem S5x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S256x5 .bf16) (harg10 : arg10.IsWhole) (arg11 : Memref sig .tc .vmem S256x256 .bf16) (harg11 : arg11.IsWhole) (arg12 : Memref sig .tc .vmem S1x1 .f32) (harg12 : arg12.IsWhole) (hc0 : ¬cond0_0 i) (hc1 : cond0_1 i)
    (x0 : Vec F S2048x5 .f32) (x1 : Vec F S2048 .f32) (x2 : Vec F S2048 .f32) (x3 : Vec F S5x256 .bf16) (x4 : Vec F S256 .f32) (x5 : Vec F S256x256 .bf16) (x6 : Vec F S256 .f32) (x7 : Vec F S256x1 .bf16) (x8 : Vec F S1 .f32) (x9 : Vec F S256x5 .bf16) (x10 : Vec F S256x256 .bf16) (xo11 : Vec F S1x1 .f32) :
    out0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo11
      = k0_pay1 (tile x0 x1 x2 x3 x4 x5 x6 x7 x8 x9 x10 xo11) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo11)]
  unfold kernelRun0_C
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x5) hz, View.ld_unit_zero (S := S1x1) hz, View.ld_unit_zero (S := S5x256) hz, View.ld_unit_zero (S := S256x256) hz, View.ld_unit_zero (S := S256x1) hz, View.ld_unit_zero (S := S256x5) hz, View.ld_unit_zero (S := S2048) hz1, View.ld_unit_zero (S := S256) hz1, View.ld_unit_zero (S := S1) hz1]
  rfl

end Cert.KernelIdeal.Pieces

end
-- ==== Proof.KRun.lean ====
/-
  The kernel's run read as a value: after point n the accumulator's cell holds zero plus the first n + 1 blocks'
  contributions; the last point divides; the one write-back puts that cell in the 1 × 1 result array, which the host
  reshapes to the scalar result.
-/
import proofs.«165616_j13804024889406_1_alg».proof.Proof.Gen.KernelIdeal.Frame
import proofs.«165616_j13804024889406_1_alg».proof.Proof.Net
import proofs.«165616_j13804024889406_1_alg».proof.Proof.KTile
import proofs.«165616_j13804024889406_1_alg».proof.Proof.KPieces
import proofs.«165616_j13804024889406_1_alg».proof.Proof.KBlocks
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Run

open Idealize.ShloMosaic.ValueIdx Cert.KernelIdeal Cert.KernelIdeal.Gen Cert.Net

open Cert.KernelIdeal.Tile Cert.KernelIdeal.Pieces Cert.KernelIdeal.Blocks

variable (m : (ℓ : Loc nD τ sig) → Buf (Elt Ideal) ℓ) (ρ : Dev nD → PrngReg)

/-- The one index of a 1 × 1 array. -/
theorem idx11 (j : S1x1.Idx) : j = ix2 (0 : Fin 1) (0 : Fin 1) := by
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  rfl

/-- One grid point adds its block of the argument arrays to the accumulator's cell. -/
theorem tile_block (c : Dev nD) (t : Fin cfg0.N) (acc : FVec Ideal S1x1 .f32) :
    tile (F := Ideal) (b0 m c t) (b1 m c t) (b2 m c t) (b3 m c t) (b4 m c t) (b5 m c t) (b6 m c t) (b7 m c t) (b8 m c t) (b9 m c t) (b10 m c t) acc
        (ix2 (0 : Fin 1) (0 : Fin 1))
      = acc (ix2 (0 : Fin 1) (0 : Fin 1)) + block (argW m c) (argX m c) (argD m c) (t.cast N_0) := by
  refine (tile_apply (b0 m c t) (b1 m c t) (b2 m c t) (b3 m c t) (b4 m c t) (b5 m c t) (b6 m c t) (b7 m c t) (b8 m c t) (b9 m c t) (b10 m c t) acc).trans ?_
  have hw : PayFwd.wts (b3 m c t) (b4 m c t) (b5 m c t) (b6 m c t) (b7 m c t) (b8 m c t) (b9 m c t) (b10 m c t) = argW m c :=
    wts_blocks m c t
  rw [hw]
  refine congrArg (acc (ix2 (0 : Fin 1) (0 : Fin 1)) + ·) ?_
  unfold block
  refine congrArg₂ (· + ·) (Finset.sum_congr rfl fun p _ => ?_) (Finset.sum_congr rfl fun p _ => ?_)
  · rw [b0_row m c t p]
  · rw [b12_diff m c t p]

/-- The first point leaves its block's tile over the reset value. -/
theorem outs_A (c : Dev nD) (t : Fin cfg0.N) (h0 : t.val % 128 = 0) (h1 : ¬t.val % 128 = 127) :
    outsAt0 m c t.val t.isLt
      = tile (F := Ideal) (b0 m c t) (b1 m c t) (b2 m c t) (b3 m c t) (b4 m c t) (b5 m c t) (b6 m c t) (b7 m c t) (b8 m c t) (b9 m c t) (b10 m c t) (k0_pay2 (F := Ideal)) :=
  (outsAt0_A m c t h0 h1).trans
    (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t))

/-- A middle point leaves its block's tile over what the point before left. -/
theorem outs_B (c : Dev nD) (t : Fin cfg0.N) (h0 : ¬t.val % 128 = 0) (h1 : ¬t.val % 128 = 127) :
    outsAt0 m c t.val t.isLt
      = tile (F := Ideal) (b0 m c t) (b1 m c t) (b2 m c t) (b3 m c t) (b4 m c t) (b5 m c t) (b6 m c t) (b7 m c t) (b8 m c t) (b9 m c t) (b10 m c t)
          (outsAt0 m c (t.val - 1) (Nat.lt_of_le_of_lt (Nat.sub_le _ _) t.isLt)) :=
  (outsAt0_B m c t h0 h1).trans
    (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)))

/-- The last point leaves its block's tile over what the point before left, divided. -/
theorem outs_C (c : Dev nD) (t : Fin cfg0.N) (h0 : ¬t.val % 128 = 0) (h1 : t.val % 128 = 127) :
    outsAt0 m c t.val t.isLt
      = k0_pay1 (F := Ideal) (tile (F := Ideal) (b0 m c t) (b1 m c t) (b2 m c t) (b3 m c t) (b4 m c t) (b5 m c t) (b6 m c t) (b7 m c t) (b8 m c t) (b9 m c t) (b10 m c t)
          (outsAt0 m c (t.val - 1) (Nat.lt_of_le_of_lt (Nat.sub_le _ _) t.isLt))) :=
  (outsAt0_C m c t h0 h1).trans
    (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)))

/-- Block k's contribution, nothing past the grid's 128 blocks. -/
def blockAt (c : Dev nD) (k : ℕ) : EReal :=
  if h : k < 128 then block (argW m c) (argX m c) (argD m c) ⟨k, h⟩ else 0

/-- Zero plus the first n + 1 blocks' contributions, in block order. -/
def partialSum (c : Dev nD) (n : ℕ) : EReal := zero + ∑ k ∈ Finset.range (n + 1), blockAt m c k

theorem blockAt_of_lt (c : Dev nD) (t : Fin cfg0.N) :
    block (argW m c) (argX m c) (argD m c) (t.cast N_0) = blockAt m c t.val := by
  unfold blockAt
  rw [dif_pos (lt_of_lt_of_eq t.isLt N_0)]
  rfl

theorem partialSum_succ (c : Dev nD) (n : ℕ) : partialSum m c (n + 1) = partialSum m c n + blockAt m c (n + 1) := by
  unfold partialSum
  rw [Finset.sum_range_succ _ (n + 1), add_assoc]

/-- Before the last point the accumulator's cell holds zero plus the blocks so far. -/
theorem cell_eq (c : Dev nD) : ∀ (n : ℕ) (h : n < cfg0.N), n < 127 →
    outsAt0 m c n h (ix2 (0 : Fin 1) (0 : Fin 1)) = partialSum m c n
  | 0, h, _ => by
    refine (congrFun (outs_A m c ⟨0, h⟩ rfl (by dsimp only; omega)) _).trans ?_
    refine (tile_block m c ⟨0, h⟩ _).trans ?_
    rw [pay2_apply, blockAt_of_lt m c ⟨0, h⟩]
    unfold partialSum
    rw [Finset.sum_range_one]
  | n + 1, h, hlt => by
    have hB0 : ¬(⟨n + 1, h⟩ : Fin cfg0.N).val % 128 = 0 := by dsimp only; omega
    have hB1 : ¬(⟨n + 1, h⟩ : Fin cfg0.N).val % 128 = 127 := by dsimp only; omega
    refine (congrFun (outs_B m c ⟨n + 1, h⟩ hB0 hB1) _).trans ?_
    refine (tile_block m c ⟨n + 1, h⟩ _).trans ?_
    rw [partialSum_succ, blockAt_of_lt m c ⟨n + 1, h⟩]
    exact congrArg (· + blockAt m c (n + 1)) (cell_eq c n (Nat.lt_of_succ_lt h) (by omega))

/-- The last point's cell: the block-by-block total. -/
theorem last_eq (c : Dev nD) (h : 127 < cfg0.N) :
    outsAt0 m c 127 h = fun _ => totalK (argW m c) (argX m c) (argD m c) := by
  funext j
  rw [idx11 j]
  refine (congrFun (outs_C m c ⟨127, h⟩ (by dsimp only; omega) rfl) _).trans ?_
  refine (pay1_apply _).trans ?_
  unfold totalK
  refine congrArg (Ideal.div · count) ?_
  refine (tile_block m c ⟨127, h⟩ _).trans ?_
  refine (congrArg (· + _) (cell_eq m c 126 (by rw [show cfg0.N = 128 from N_0]; omega) (by omega))).trans ?_
  rw [blockAt_of_lt m c ⟨127, h⟩, ← partialSum_succ]
  unfold partialSum
  rw [Finset.sum_range]
  exact congrArg (zero + ·) (Finset.sum_congr rfl fun t _ => dif_pos t.isLt)

/-- The grid's last point. -/
abbrev tLast : Fin cfg0.N := ⟨127, lt_of_lt_of_eq (by decide : 127 < 128) N_0.symm⟩

/-- The 1 × 1 result array with its cell at the block-by-block total. -/
abbrev result (c : Dev nD) : Buf (Elt Ideal) ((c : Thread nD τ).loc main_v8) :=
  fun _ => totalK (argW m c) (argX m c) (argD m c)

/-- The result window's block at the last point: offset zero and extent one along both axes, the whole array. -/
theorem last_rect : ∀ a : Fin 2,
    win0_11.index tLast a * win0_11.size a = 0 ∧ win0_11.xsize (grid0.coords tLast) a = 1 := by decide +kernel

/-- The one write-back, at the last point, writes the whole 1 × 1 array. -/
theorem flushed_eq (c : Dev nD) (t : Fin cfg0.N) (hf : (cfg0.win 11).flush t = true) :
    (dats m 0 c).flushed 11 t = ((cfg0.win 11).blk t).view.read (Elt Ideal) (result m c) := by
  have hN : cfg0.N = 128 := N_0
  have h127 : t.val = 127 := by have := (flush0_11 t).mp hf; have := t.isLt; omega
  obtain rfl : t = tLast := Fin.ext h127
  show (cfg0.win 11).cut (grid0.coords tLast) ((dats m 0 c).after 11 tLast) = _
  rw [after0_11, last_eq]
  have hoff : (fun a => win0_11.index tLast a * main_v8.ty.shape.size a) = fun _ => 0 := funext fun a => (last_rect a).1
  exact (Memref.read_access_unit_zero (Elt Ideal) main_v8 hoff (fun a => by rw [congrFun hoff a]; simp) (result m c)).symm

/-- Every index of the result array lies in the block the last point writes back. -/
theorem covered (i : main_v8.ty.shape.Idx) : i ∈ ((cfg0.win 11).blk tLast).view.set := by
  show i ∈ ((View.whole main_v8).slice (win0_11.rect tLast)).set
  rw [View.set_slice_whole, Rect.mem_set_unit]
  intro a
  obtain ⟨ho, hs⟩ := last_rect a
  have hi : (i a : Nat) < 1 := by
    have := (i a).isLt
    have hsz : main_v8.ty.shape.size a = 1 := by match a with | ⟨0, _⟩ => rfl | ⟨1, _⟩ => rfl
    omega
  show win0_11.index tLast a * win0_11.size a ≤ (i a : Nat)
    ∧ (i a : Nat) < win0_11.index tLast a * win0_11.size a + win0_11.xsize (grid0.coords tLast) a
  rw [ho, hs]
  omega

/-- So the result array ends with its cell at the total. -/
theorem final (c : Dev nD) : (dats m 0 c).arrAt 11 cfg0.N = result m c :=
  (dats m 0 c).arrAt_eq_of_cover 11 (result m c) (flushed_eq m c) fun i =>
    ⟨tLast, (flush0_11 tLast).mpr rfl, covered i⟩

/-- The host's reshape of the 1 × 1 array to a scalar keeps the cell. -/
theorem tail_eq (c : Dev nD) :
    Pipeline.afterTail₀ cfgs (dats m) 0 (V0 m) [hostOps1] c main_v9
      = fun _ => totalK (argW m c) (argX m c) (argD m c) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = result m c :=
    (Pipeline.withArrays_arr spec0 launch0.win.arr_inj c _ _ 11).trans (final m c)
  rw [e]
  funext i
  rfl

/-- Every weakly fair execution ends with the scalar result at the block-by-block total and the arguments unchanged. -/
theorem run : θ_run defs (onTc (τ := τ) (main (F := Ideal))) ⟨m, fun _ => 0, ρ⟩ fun r => ∀ c : Dev nD,
      r.2.mem ((c.tc : Thread nD τ).loc main_v9) = (fun _ => totalK (argW m c) (argX m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c)))⟩)
    (run_main m ρ)

end Cert.KernelIdeal.Run

end
-- ==== Proof.RFwd.lean ====
/-
  The reference's forward passes read at an entry: over the whole table of 262144 rows, its hidden layers and value at
  row r are the network's at that row's point, at the point itself and at the point with the step added to its first
  coordinate (the scatter-add of the constant step into column 0).
-/
import proofs.«165616_j13804024889406_1_alg».proof.Proof.Gen.ReferenceIdeal.Read
import proofs.«165616_j13804024889406_1_alg».proof.Proof.Net
import proofs.«165616_j13804024889406_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Fwd

open Idealize.ShloMosaic Idealize.ShloMosaic.ValueIdx Cert.ReferenceIdeal Cert.ReferenceIdeal.Read Cert.Net

variable (x0 x1 : (⟨S32x8192, .f32⟩ : BufTy).Contents (Elt Ideal)) (x2 : (⟨S32x8192x5, .f32⟩ : BufTy).Contents (Elt Ideal))
  (x3 : (⟨S5x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

/-- The weights of the argument arrays. -/
abbrev wts : Weights := ofArgs x3 x4 x5 x6 x7 x8

/-! ### The index equations of the forward stages -/

/-- The reshape's index: flat row r, column k is (r / 8192, r % 8192, k). -/
private theorem idx_v0 (r : Fin 262144) (k : Fin 5) :
    idx_main_v0 (ix2 r k) = ix3 (⟨r.val / 8192, by have := r.isLt; omega⟩ : Fin 32) (⟨r.val % 8192, Nat.mod_lt _ (by norm_num)⟩ : Fin 8192) k := by
  funext a
  apply Fin.ext
  have hr := r.isLt
  have hk := k.isLt
  match a with
  | ⟨0, _⟩ => show (r.val * 5 + k.val) / 40960 = r.val / 8192; omega
  | ⟨1, _⟩ => show (r.val * 5 + k.val) / 5 % 8192 = r.val % 8192; omega
  | ⟨2, _⟩ => show (r.val * 5 + k.val) % 5 = k.val; omega

/-- The reshaped table's row r is the point of flat row r. -/
private theorem v0_apply (r : Fin 262144) (k : Fin 5) :
    val_main_v0 (F := Ideal) x2 (ix2 r k) = points x2 r k := by
  rw [val_main_v0_apply, idx_v0]
  rfl

/-- A product of a row of the left table and a column of the right one reads the left at (r, k), the right at (k, q). -/
private theorem lidx_v1 (r : Fin 262144) (q : Fin 256) (k : Fin 5) : lidx_main_v1 (ix2 r q) k = ix2 r k :=
  funext fun a => Fin.ext (by match a with | ⟨0, _⟩ => rfl | ⟨1, _⟩ => rfl)
private theorem ridx_v1 (r : Fin 262144) (q : Fin 256) (k : Fin 5) : ridx_main_v1 (ix2 r q) k = ix2 k q :=
  funext fun a => Fin.ext (by match a with | ⟨0, _⟩ => rfl | ⟨1, _⟩ => rfl)
private theorem lidx_v8 (r : Fin 262144) (q : Fin 256) (k : Fin 256) : lidx_main_v8 (ix2 r q) k = ix2 r k :=
  funext fun a => Fin.ext (by match a with | ⟨0, _⟩ => rfl | ⟨1, _⟩ => rfl)
private theorem ridx_v8 (r : Fin 262144) (q : Fin 256) (k : Fin 256) : ridx_main_v8 (ix2 r q) k = ix2 k q :=
  funext fun a => Fin.ext (by match a with | ⟨0, _⟩ => rfl | ⟨1, _⟩ => rfl)
private theorem lidx_v15 (r : Fin 262144) (k : Fin 256) : lidx_main_v15 (ix2 r (0 : Fin 1)) k = ix2 r k :=
  funext fun a => Fin.ext (by match a with | ⟨0, _⟩ => rfl | ⟨1, _⟩ => rfl)
private theorem ridx_v15 (r : Fin 262144) (k : Fin 256) : ridx_main_v15 (ix2 r (0 : Fin 1)) k = ix2 k (0 : Fin 1) :=
  funext fun a => Fin.ext (by match a with | ⟨0, _⟩ => rfl | ⟨1, _⟩ => rfl)
private theorem lidx_v38 (r : Fin 262144) (q : Fin 256) (k : Fin 5) : lidx_main_v38 (ix2 r q) k = ix2 r k :=
  funext fun a => Fin.ext (by match a with | ⟨0, _⟩ => rfl | ⟨1, _⟩ => rfl)
private theorem ridx_v38 (r : Fin 262144) (q : Fin 256) (k : Fin 5) : ridx_main_v38 (ix2 r q) k = ix2 k q :=
  funext fun a => Fin.ext (by match a with | ⟨0, _⟩ => rfl | ⟨1, _⟩ => rfl)
private theorem lidx_v45 (r : Fin 262144) (q : Fin 256) (k : Fin 256) : lidx_main_v45 (ix2 r q) k = ix2 r k :=
  funext fun a => Fin.ext (by match a with | ⟨0, _⟩ => rfl | ⟨1, _⟩ => rfl)
private theorem ridx_v45 (r : Fin 262144) (q : Fin 256) (k : Fin 256) : ridx_main_v45 (ix2 r q) k = ix2 k q :=
  funext fun a => Fin.ext (by match a with | ⟨0, _⟩ => rfl | ⟨1, _⟩ => rfl)

/-- A bias broadcast along the rows reads the bias at the column. -/
private theorem idx_v3 (r : Fin 262144) (q : Fin 256) : idx_main_v2 (idx_main_v3 (ix2 r q)) = ix1 q :=
  funext fun a => Fin.ext (by match a with | ⟨0, _⟩ => rfl)
private theorem idx_v10 (r : Fin 262144) (q : Fin 256) : idx_main_v9 (idx_main_v10 (ix2 r q)) = ix1 q :=
  funext fun a => Fin.ext (by match a with | ⟨0, _⟩ => rfl)
private theorem idx_v17 (r : Fin 262144) : idx_main_v16 (idx_main_v17 (ix2 r (0 : Fin 1))) = ix1 (0 : Fin 1) :=
  funext fun a => Fin.ext (by match a with | ⟨0, _⟩ => rfl)
private theorem idx_v40 (r : Fin 262144) (q : Fin 256) : idx_main_v39 (idx_main_v40 (ix2 r q)) = ix1 q :=
  funext fun a => Fin.ext (by match a with | ⟨0, _⟩ => rfl)
private theorem idx_v47 (r : Fin 262144) (q : Fin 256) : idx_main_v46 (idx_main_v47 (ix2 r q)) = ix1 q :=
  funext fun a => Fin.ext (by match a with | ⟨0, _⟩ => rfl)

/-- The column of 262144 × 1 values read as a vector: row r is entry (r, 0). -/
private theorem idx_v19 (r : Fin 262144) : idx_main_v19 (ix1 r) = ix2 r (0 : Fin 1) :=
  funext fun a => Fin.ext (by
    match a with
    | ⟨0, _⟩ => show r.val / 1 = r.val; exact Nat.div_one _
    | ⟨1, _⟩ => rfl)

/-! ### The forward pass at the points -/

theorem v5_apply (r : Fin 262144) (q : Fin 256) :
    val_main_v5 (F := Ideal) x2 x3 x4 (ix2 r q) = (wts x3 x4 x5 x6 x7 x8).hid1 (points x2 r) q := by
  rw [val_main_v5_apply, val_main_v4_apply, val_main_v1_apply, val_main_v3_apply, val_main_v2_apply, idx_v3]
  simp only [lidx_v1, ridx_v1, v0_apply, Ideal.hostUnary_tanh_def, Ideal.addf_def]
  rfl

theorem v12_apply (r : Fin 262144) (q : Fin 256) :
    val_main_v12 (F := Ideal) x2 x3 x4 x5 x6 (ix2 r q) = (wts x3 x4 x5 x6 x7 x8).hid2 (points x2 r) q := by
  rw [val_main_v12_apply, val_main_v11_apply, val_main_v8_apply, val_main_v10_apply, val_main_v9_apply, idx_v10]
  simp only [lidx_v8, ridx_v8, v5_apply x2 x3 x4 x5 x6 x7 x8, Ideal.hostUnary_tanh_def, Ideal.addf_def]
  rfl

theorem v19_apply (r : Fin 262144) :
    val_main_v19 (F := Ideal) x2 x3 x4 x5 x6 x7 x8 (ix1 r) = (wts x3 x4 x5 x6 x7 x8).value (points x2 r) := by
  rw [val_main_v19_apply, idx_v19, val_main_v18_apply, val_main_v15_apply, val_main_v17_apply, val_main_v16_apply,
    idx_v17]
  simp only [lidx_v15, ridx_v15, v12_apply x2 x3 x4 x5 x6 x7 x8, Ideal.addf_def]
  rfl

/-! ### A scatter whose updates land on distinct entries, read at an entry -/

section Fold

variable {N I α : Type}

/-- A left fold of steps each of which changes at most the entry it lands on, read at an entry on which no
    step of the list lands: the starting value there. -/
private theorem foldl_not_landed (g : N → Option I) (step : (I → α) → N → (I → α)) (i : I)
    (hmiss : ∀ r n, g n ≠ some i → step r n i = r i) :
    ∀ (L : List N) (x : I → α), (∀ n ∈ L, g n ≠ some i) → L.foldl step x i = x i
  | [], x, _ => rfl
  | n :: L, x, h => by
      rw [List.foldl_cons, foldl_not_landed g step i hmiss L (step x n) (fun m hm => h m (List.mem_cons_of_mem _ hm))]
      exact hmiss x n (h n List.mem_cons_self)

/-- The same fold read at an entry on which exactly one step of a list without repeats lands: the body applied
    once, to the starting value there and that step's update. -/
private theorem foldl_landed_once (g : N → Option I) (step : (I → α) → N → (I → α)) (f : α → α → α) (upd : N → α) (i : I)
    (n0 : N) (hmiss : ∀ r n, g n ≠ some i → step r n i = r i)
    (hhit : ∀ r n, g n = some i → step r n i = f (r i) (upd n)) (h0 : g n0 = some i) :
    ∀ (L : List N) (x : I → α), L.Nodup → n0 ∈ L → (∀ n ∈ L, g n = some i → n = n0) →
      L.foldl step x i = f (x i) (upd n0)
  | [], x, _, hm, _ => absurd hm List.not_mem_nil
  | n :: L, x, hN, hm, hu => by
      rw [List.foldl_cons]
      have hN' := List.nodup_cons.1 hN
      by_cases hn : n = n0
      · subst hn
        rw [foldl_not_landed g step i hmiss L (step x n) (fun m hmL e =>
          hN'.1 (hu m (List.mem_cons_of_mem _ hmL) e ▸ hmL))]
        exact hhit x n h0
      · have hm' : n0 ∈ L := (List.mem_cons.1 hm).resolve_left (fun e => hn e.symm)
        rw [foldl_landed_once g step f upd i n0 hmiss hhit h0 L (step x n) hN'.2 hm'
          (fun m hmL e => hu m (List.mem_cons_of_mem _ hmL) e)]
        rw [hmiss x n (fun e => hn (hu n List.mem_cons_self e))]

end Fold

section Scatter

variable {α : Type} {s si u : Shape} {w : Nat}

/-- A scatter read at an entry on which no update lands: the operand's entry. -/
private theorem scatter_apply_of_none_lands (d : ScatterDims s si u) (f : α → α → α) (x : s.Idx → α) (idx : IVec si w)
    (upd : u.Idx → α) (i : s.Idx) (h : ∀ j, d.resultIdx? j idx ≠ some i) :
    Host.scatter d f x idx upd i = x i := by
  unfold Host.scatter
  refine foldl_not_landed (fun n => d.resultIdx? (u.rowMajor.symm n) idx) _ i ?_ _ x (fun n _ => h _)
  intro r n hn
  generalize d.resultIdx? (u.rowMajor.symm n) idx = o at hn ⊢
  cases o with
  | none => rfl
  | some i0 => exact if_neg (fun ei => hn (congrArg some ei.symm))

/-- A scatter read at an entry on which exactly one update lands: the body applied to the operand's entry and
    that update. -/
private theorem scatter_apply_of_one_lands (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  have key := foldl_landed_once (fun n => d.resultIdx? (u.rowMajor.symm n) idx)
    (fun r n =>
      match d.resultIdx? (u.rowMajor.symm n) idx with
      | some i => fun i' => if i' = i then f (r i) (upd (u.rowMajor.symm n)) else r i'
      | none => r) f (fun n => upd (u.rowMajor.symm n)) i (u.rowMajor j) ?_ ?_
    (by show d.resultIdx? (u.rowMajor.symm (u.rowMajor j)) idx = some i; rw [Equiv.symm_apply_apply]; exact hj)
    (List.finRange u.numel) x (List.nodup_finRange _) (List.mem_finRange _)
    (fun n _ e => by
      have := huniq _ e
      rw [← this, Equiv.apply_symm_apply])
  · rw [Equiv.symm_apply_apply] at key
    exact key
  · intro r n hn
    generalize d.resultIdx? (u.rowMajor.symm n) idx = o at hn ⊢
    cases o with
    | none => rfl
    | some i0 => exact if_neg (fun ei => hn (congrArg some ei.symm))
  · intro r n hn
    generalize d.resultIdx? (u.rowMajor.symm n) idx = o at hn ⊢
    subst hn
    exact if_pos rfl

end Scatter

/-! ### Where the updates of the step's scatter land: update row r at entry (r, 0) -/

private theorem sc_start_0 (j : S262144.Idx) (idx : IVec S1 32) : scatter_S262144x5_S1_S262144_0_1_1_0.start j idx 0 = 0 := by
  unfold ScatterDims.start
  rw [dif_neg (show ¬(0 : Fin S262144x5.rank) ∈ scatter_S262144x5_S1_S262144_0_1_1_0.scatterDimsToOperandDims by decide)]

private theorem sc_start_1 (j : S262144.Idx) (idx : IVec S1 32) : scatter_S262144x5_S1_S262144_0_1_1_0.start j idx 1 = (idx (ix1 (0 : Fin 1))).toInt := by
  unfold ScatterDims.start
  rw [dif_pos (show (1 : Fin S262144x5.rank) ∈ scatter_S262144x5_S1_S262144_0_1_1_0.scatterDimsToOperandDims by decide)]
  refine congrArg (fun k => (idx k).toInt) (funext fun b => Fin.ext ?_)
  match b with
  | ⟨0, _⟩ =>
    have h1 : ∀ z : Fin (S1.size ⟨0, by decide⟩), z.val = 0 := fun z => Nat.lt_one_iff.1 z.isLt
    exact (h1 _).trans (h1 _).symm

private theorem sc_window_0 (j : S262144.Idx) : scatter_S262144x5_S1_S262144_0_1_1_0.window j 0 = (j 0).val := by
  unfold ScatterDims.window
  rw [dif_pos (show (0 : Fin S262144x5.rank) ∈ scatter_S262144x5_S1_S262144_0_1_1_0.sKept by decide)]
  rfl

private theorem sc_window_1 (j : S262144.Idx) : scatter_S262144x5_S1_S262144_0_1_1_0.window j 1 = 0 := by
  unfold ScatterDims.window
  rw [dif_neg (show ¬(1 : Fin S262144x5.rank) ∈ scatter_S262144x5_S1_S262144_0_1_1_0.sKept by decide)]

/-- With the index word 0, update row r lands at entry (r, 0). -/
private theorem sc_lands (r : Fin 262144) (idx : IVec S1 32) (h0 : idx (ix1 (0 : Fin 1)) = 0#32) :
    scatter_S262144x5_S1_S262144_0_1_1_0.resultIdx? (ix1 r) idx = some (ix2 r (0 : Fin 5)) := by
  have hs : ∀ a, scatter_S262144x5_S1_S262144_0_1_1_0.start (ix1 r) idx a + (scatter_S262144x5_S1_S262144_0_1_1_0.window (ix1 r) a : Int)
      = (((ix2 r (0 : Fin 5) : S262144x5.Idx) a).val : Int) := by
    intro a
    match a with
    | ⟨0, _⟩ =>
      show scatter_S262144x5_S1_S262144_0_1_1_0.start (ix1 r) idx 0 + (scatter_S262144x5_S1_S262144_0_1_1_0.window (ix1 r) 0 : Int) = (r.val : Int)
      rw [sc_start_0, sc_window_0, zero_add]
    | ⟨1, _⟩ =>
      show scatter_S262144x5_S1_S262144_0_1_1_0.start (ix1 r) idx 1 + (scatter_S262144x5_S1_S262144_0_1_1_0.window (ix1 r) 1 : Int) = ((0 : Nat) : Int)
      rw [sc_start_1, sc_window_1, h0]
      rfl
  unfold ScatterDims.resultIdx?
  rw [dif_pos (fun a => by
    rw [hs a]
    exact ⟨Int.natCast_nonneg _, Int.ofNat_lt.2 ((ix2 r (0 : Fin 5) : S262144x5.Idx) a).isLt⟩)]
  refine congrArg some (funext fun a => Fin.ext ?_)
  show (scatter_S262144x5_S1_S262144_0_1_1_0.start (ix1 r) idx a + (scatter_S262144x5_S1_S262144_0_1_1_0.window (ix1 r) a : Int)).toNat = _
  rw [hs a]
  exact Int.toNat_natCast _

private theorem v35_zero : val_main_v35 (F := Ideal) (ix1 (0 : Fin 1)) = 0#32 := by
  rw [val_main_v35_apply, val_main_c_apply]

private theorem v36_apply (j : S262144.Idx) : val_main_v36 (F := Ideal) j = step := by
  rw [val_main_v36_apply, val_main_cst_2_apply]
  rfl

/-- The scatter-add of the step into column 0: the shifted point. -/
theorem v37_apply (r : Fin 262144) (k : Fin 5) :
    val_main_v37 (F := Ideal) x2 (ix2 r k) = shift (points x2 r) k := by
  unfold val_main_v37
  by_cases hk : k = 0
  · subst hk
    refine (scatter_apply_of_one_lands _ _ _ _ _ (ix2 r (0 : Fin 5)) (ix1 r) (sc_lands r _ v35_zero) ?_).trans ?_
    · intro j' hj'
      obtain ⟨r', rfl⟩ : ∃ r' : Fin 262144, j' = ix1 r' := ⟨j' 0, eq_ix1 j'⟩
      rw [sc_lands r' _ v35_zero] at hj'
      have e : r' = r := congrFun (Option.some.inj hj') 0
      rw [e]
    · rw [v36_apply, v0_apply]
      show _ = if (0 : Fin 5) = 0 then _ else _
      rw [if_pos rfl]
      rfl
  · refine (scatter_apply_of_none_lands _ _ _ _ _ (ix2 r k) (fun j e => ?_)).trans ?_
    · obtain ⟨r', rfl⟩ : ∃ r' : Fin 262144, j = ix1 r' := ⟨j 0, eq_ix1 j⟩
      rw [sc_lands r' _ v35_zero] at e
      have e1 : (0 : Fin 5) = k := congrFun (Option.some.inj e) 1
      exact hk e1.symm
    · rw [v0_apply]
      show _ = if k = 0 then _ else _
      rw [if_neg hk]

theorem v42_apply (r : Fin 262144) (q : Fin 256) :
    val_main_v42 (F := Ideal) x2 x3 x4 (ix2 r q) = (wts x3 x4 x5 x6 x7 x8).hid1 (shift (points x2 r)) q := by
  rw [val_main_v42_apply, val_main_v41_apply, val_main_v38_apply, val_main_v40_apply, val_main_v39_apply, idx_v40]
  simp only [lidx_v38, ridx_v38, v37_apply, Ideal.hostUnary_tanh_def, Ideal.addf_def]
  rfl

theorem v49_apply (r : Fin 262144) (q : Fin 256) :
    val_main_v49 (F := Ideal) x2 x3 x4 x5 x6 (ix2 r q) = (wts x3 x4 x5 x6 x7 x8).hid2 (shift (points x2 r)) q := by
  rw [val_main_v49_apply, val_main_v48_apply, val_main_v45_apply, val_main_v47_apply, val_main_v46_apply, idx_v47]
  simp only [lidx_v45, ridx_v45, v42_apply x2 x3 x4 x5 x6 x7 x8, Ideal.hostUnary_tanh_def, Ideal.addf_def]
  rfl

end Cert.ReferenceIdeal.Fwd

end
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.RBwd.lean ====
/-
  The reference's backward passes read at an entry: the gradient at row r, and at the shifted row, is the network's
  gradient in the form g·(1 − h) + (g·(1 − h))·h, the output's cotangent a column of ones contracted against the last
  layer's one column.
-/
import proofs.«165616_j13804024889406_1_alg».proof.Proof.Gen.ReferenceIdeal.Read
import proofs.«165616_j13804024889406_1_alg».proof.Proof.Net
import proofs.«165616_j13804024889406_1_alg».proof.Proof.LibRowRowDot
import proofs.«165616_j13804024889406_1_alg».proof.Proof.RFwd
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Bwd

open Idealize.ShloMosaic Idealize.ShloMosaic.ValueIdx Cert.ReferenceIdeal Cert.ReferenceIdeal.Read Cert.Net

variable (x0 x1 : (⟨S32x8192, .f32⟩ : BufTy).Contents (Elt Ideal)) (x2 : (⟨S32x8192x5, .f32⟩ : BufTy).Contents (Elt Ideal))
  (x3 : (⟨S5x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

open Cert.ReferenceIdeal.Fwd

/-! ### At the points -/

/-- The output's cotangent: every entry of the column of ones is the one. -/
theorem v21_one (i : S262144x1.Idx) : val_main_v21 (F := Ideal) i = one := by
  rw [val_main_v21_apply, val_main_v20_apply, val_main_cst_1_apply]; rfl

/-- The contraction of the ones against the last layer's column runs over the one unit index. -/
theorem ridx22 (r : Fin 262144) (j : Fin 256) (k : Fin 1) : ridx_main_v22 (ix2 r j) k = ix2 j k := by
  funext a; match a with | ⟨0, _⟩ => rfl | ⟨1, _⟩ => rfl

theorem v22_apply (r : Fin 262144) (j : Fin 256) :
    val_main_v22 (F := Ideal) x7 (ix2 r j) = one * x7 (ix2 j (0 : Fin 1)) := by
  rw [val_main_v22_apply, Fin.sum_univ_one, v21_one, ridx22]

/-- One minus the second hidden layer. -/
theorem v14_apply (r : Fin 262144) (j : Fin 256) :
    val_main_v14 (F := Ideal) x2 x3 x4 x5 x6 (ix2 r j) = one - (wts x3 x4 x5 x6 x7 x8).hid2 (points x2 r) j := by
  rw [val_main_v14_apply, val_main_v13_apply, val_main_cst_0_apply, v12_apply x2 x3 x4 x5 x6 x7 x8]; rfl

/-- The second layer's pre-activation cotangent: g·(1 − h2) + (g·(1 − h2))·h2 with g the last layer's weight. -/
theorem v25_apply (r : Fin 262144) (j : Fin 256) :
    val_main_v25 (F := Ideal) x2 x3 x4 x5 x6 x7 (ix2 r j) = (wts x3 x4 x5 x6 x7 x8).dz2R (points x2 r) j := by
  rw [val_main_v25_apply, val_main_v24_apply, val_main_v23_apply, v22_apply,
    v14_apply x2 x3 x4 x5 x6 x7 x8, v12_apply x2 x3 x4 x5 x6 x7 x8]
  rfl

theorem lidx26 (r : Fin 262144) (j : Fin 256) (k : Fin 256) : lidx_main_v26 (ix2 r j) k = ix2 r k := by
  funext a; match a with | ⟨0, _⟩ => rfl | ⟨1, _⟩ => rfl
theorem ridx26 (r : Fin 262144) (j : Fin 256) (k : Fin 256) : ridx_main_v26 (ix2 r j) k = ix2 j k := by
  funext a; match a with | ⟨0, _⟩ => rfl | ⟨1, _⟩ => rfl

/-- The first hidden layer's cotangent: the second layer's table read across. -/
theorem v26_apply (r : Fin 262144) (j : Fin 256) :
    val_main_v26 (F := Ideal) x2 x3 x4 x5 x6 x7 (ix2 r j) = (wts x3 x4 x5 x6 x7 x8).dh1R (points x2 r) j := by
  rw [val_main_v26_apply]
  unfold Weights.dh1R
  refine Finset.sum_congr rfl fun k _ => ?_
  rw [lidx26, ridx26, v25_apply x2 x3 x4 x5 x6 x7 x8]
  rfl

/-- One minus the first hidden layer. -/
theorem v7_apply (r : Fin 262144) (j : Fin 256) :
    val_main_v7 (F := Ideal) x2 x3 x4 (ix2 r j) = one - (wts x3 x4 x5 x6 x7 x8).hid1 (points x2 r) j := by
  rw [val_main_v7_apply, val_main_v6_apply, val_main_cst_apply, v5_apply x2 x3 x4 x5 x6 x7 x8]; rfl

/-- The first layer's pre-activation cotangent. -/
theorem v29_apply (r : Fin 262144) (j : Fin 256) :
    val_main_v29 (F := Ideal) x2 x3 x4 x5 x6 x7 (ix2 r j) = (wts x3 x4 x5 x6 x7 x8).dz1R (points x2 r) j := by
  rw [val_main_v29_apply, val_main_v28_apply, val_main_v27_apply, v26_apply x2 x3 x4 x5 x6 x7 x8,
    v7_apply x2 x3 x4 x5 x6 x7 x8, v5_apply x2 x3 x4 x5 x6 x7 x8]
  rfl

theorem lidx30 (r : Fin 262144) (i : Fin 5) (k : Fin 256) : lidx_main_v30 (ix2 r i) k = ix2 r k := by
  funext a; match a with | ⟨0, _⟩ => rfl | ⟨1, _⟩ => rfl
theorem ridx30 (r : Fin 262144) (i : Fin 5) (k : Fin 256) : ridx_main_v30 (ix2 r i) k = ix2 i k := by
  funext a; match a with | ⟨0, _⟩ => rfl | ⟨1, _⟩ => rfl

theorem v30_apply (r : Fin 262144) (i : Fin 5) :
    val_main_v30 (F := Ideal) x2 x3 x4 x5 x6 x7 (ix2 r i) = (wts x3 x4 x5 x6 x7 x8).gradR (points x2 r) i := by
  rw [val_main_v30_apply]
  unfold Weights.gradR
  refine Finset.sum_congr rfl fun k _ => ?_
  rw [lidx30, ridx30, v29_apply x2 x3 x4 x5 x6 x7 x8]
  rfl

/-! ### At the shifted points -/

/-- The output's cotangent: every entry of the column of ones is the one. -/
theorem v58_one (i : S262144x1.Idx) : val_main_v58 (F := Ideal) i = one := by
  rw [val_main_v58_apply, val_main_v57_apply, val_main_cst_5_apply]; rfl

/-- The contraction of the ones against the last layer's column runs over the one unit index. -/
theorem ridx59 (r : Fin 262144) (j : Fin 256) (k : Fin 1) : ridx_main_v59 (ix2 r j) k = ix2 j k := by
  funext a; match a with | ⟨0, _⟩ => rfl | ⟨1, _⟩ => rfl

theorem v59_apply (r : Fin 262144) (j : Fin 256) :
    val_main_v59 (F := Ideal) x7 (ix2 r j) = one * x7 (ix2 j (0 : Fin 1)) := by
  rw [val_main_v59_apply, Fin.sum_univ_one, v58_one, ridx59]

/-- One minus the second hidden layer. -/
theorem v51_apply (r : Fin 262144) (j : Fin 256) :
    val_main_v51 (F := Ideal) x2 x3 x4 x5 x6 (ix2 r j) = one - (wts x3 x4 x5 x6 x7 x8).hid2 (shift (points x2 r)) j := by
  rw [val_main_v51_apply, val_main_v50_apply, val_main_cst_4_apply, v49_apply x2 x3 x4 x5 x6 x7 x8]; rfl

/-- The second layer's pre-activation cotangent: g·(1 − h2) + (g·(1 − h2))·h2 with g the last layer's weight. -/
theorem v62_apply (r : Fin 262144) (j : Fin 256) :
    val_main_v62 (F := Ideal) x2 x3 x4 x5 x6 x7 (ix2 r j) = (wts x3 x4 x5 x6 x7 x8).dz2R (shift (points x2 r)) j := by
  rw [val_main_v62_apply, val_main_v61_apply, val_main_v60_apply, v59_apply,
    v51_apply x2 x3 x4 x5 x6 x7 x8, v49_apply x2 x3 x4 x5 x6 x7 x8]
  rfl

theorem lidx63 (r : Fin 262144) (j : Fin 256) (k : Fin 256) : lidx_main_v63 (ix2 r j) k = ix2 r k := by
  funext a; match a with | ⟨0, _⟩ => rfl | ⟨1, _⟩ => rfl
theorem ridx63 (r : Fin 262144) (j : Fin 256) (k : Fin 256) : ridx_main_v63 (ix2 r j) k = ix2 j k := by
  funext a; match a with | ⟨0, _⟩ => rfl | ⟨1, _⟩ => rfl

/-- The first hidden layer's cotangent: the second layer's table read across. -/
theorem v63_apply (r : Fin 262144) (j : Fin 256) :
    val_main_v63 (F := Ideal) x2 x3 x4 x5 x6 x7 (ix2 r j) = (wts x3 x4 x5 x6 x7 x8).dh1R (shift (points x2 r)) j := by
  rw [val_main_v63_apply]
  unfold Weights.dh1R
  refine Finset.sum_congr rfl fun k _ => ?_
  rw [lidx63, ridx63, v62_apply x2 x3 x4 x5 x6 x7 x8]
  rfl

/-- One minus the first hidden layer. -/
theorem v44_apply (r : Fin 262144) (j : Fin 256) :
    val_main_v44 (F := Ideal) x2 x3 x4 (ix2 r j) = one - (wts x3 x4 x5 x6 x7 x8).hid1 (shift (points x2 r)) j := by
  rw [val_main_v44_apply, val_main_v43_apply, val_main_cst_3_apply, v42_apply x2 x3 x4 x5 x6 x7 x8]; rfl

/-- The first layer's pre-activation cotangent. -/
theorem v66_apply (r : Fin 262144) (j : Fin 256) :
    val_main_v66 (F := Ideal) x2 x3 x4 x5 x6 x7 (ix2 r j) = (wts x3 x4 x5 x6 x7 x8).dz1R (shift (points x2 r)) j := by
  rw [val_main_v66_apply, val_main_v65_apply, val_main_v64_apply, v63_apply x2 x3 x4 x5 x6 x7 x8,
    v44_apply x2 x3 x4 x5 x6 x7 x8, v42_apply x2 x3 x4 x5 x6 x7 x8]
  rfl

theorem lidx67 (r : Fin 262144) (i : Fin 5) (k : Fin 256) : lidx_main_v67 (ix2 r i) k = ix2 r k := by
  funext a; match a with | ⟨0, _⟩ => rfl | ⟨1, _⟩ => rfl
theorem ridx67 (r : Fin 262144) (i : Fin 5) (k : Fin 256) : ridx_main_v67 (ix2 r i) k = ix2 i k := by
  funext a; match a with | ⟨0, _⟩ => rfl | ⟨1, _⟩ => rfl

theorem v67_apply (r : Fin 262144) (i : Fin 5) :
    val_main_v67 (F := Ideal) x2 x3 x4 x5 x6 x7 (ix2 r i) = (wts x3 x4 x5 x6 x7 x8).gradR (shift (points x2 r)) i := by
  rw [val_main_v67_apply]
  unfold Weights.gradR
  refine Finset.sum_congr rfl fun k _ => ?_
  rw [lidx67, ridx67, v66_apply x2 x3 x4 x5 x6 x7 x8]
  rfl

end Cert.ReferenceIdeal.Bwd

end
-- ==== Proof.RTail.lean ====
/-
  The reference's residual at row r and its result: the two whole-array sums, each divided by the count, added.
-/
import proofs.«165616_j13804024889406_1_alg».proof.Proof.Gen.ReferenceIdeal.Read
import proofs.«165616_j13804024889406_1_alg».proof.Proof.Net
import proofs.«165616_j13804024889406_1_alg».proof.Proof.Sums
import proofs.«165616_j13804024889406_1_alg».proof.Proof.RFwd
import proofs.«165616_j13804024889406_1_alg».proof.Proof.RBwd
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Tail

open Idealize.ShloMosaic Idealize.ShloMosaic.ValueIdx Cert.ReferenceIdeal Cert.ReferenceIdeal.Read Cert.Net

variable (x0 x1 : (⟨S32x8192, .f32⟩ : BufTy).Contents (Elt Ideal)) (x2 : (⟨S32x8192x5, .f32⟩ : BufTy).Contents (Elt Ideal))
  (x3 : (⟨S5x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

open Cert.ReferenceIdeal.Fwd Cert.ReferenceIdeal.Bwd

/-! ### Reading a column of a 262144 × 5 table through its slice and the slice's flattening

  Slicing column c of the table gives a 262144 × 1 table whose entry (r, 0) is the table's entry (r, c); flattening
  that to a vector puts it at position r (r / 1 = r). The index equations below say exactly this, coordinate by
  coordinate. -/

/-- Closes an index equation between a slice-of-flattening index at position r and the pair (r, c):
    coordinate 0 is r / 1 = r, coordinate 1 is c + 0 = c. -/
local macro "col_idx" : tactic =>
  `(tactic| (funext a; match a with
    | ⟨0, _⟩ => exact Fin.ext (Nat.div_one _)
    | ⟨1, _⟩ => exact Fin.ext rfl))

/-- The reshaped points: entry (r, k) of the 262144 × 5 table is coordinate k of flat row r. -/
private theorem v0_apply (r : Fin 262144) (k : Fin 5) :
    val_main_v0 (F := Ideal) x2 (ix2 r k) = points x2 r k := by
  rw [val_main_v0_apply]
  unfold points
  refine congrArg x2 ?_
  funext a
  have hr := r.isLt
  have hk := k.isLt
  match a with
  | ⟨0, _⟩ => exact Fin.ext (by show (r.val * 5 + k.val) / 40960 = r.val / 8192; omega)
  | ⟨1, _⟩ => exact Fin.ext (by show (r.val * 5 + k.val) / 5 % 8192 = r.val % 8192; omega)
  | ⟨2, _⟩ => exact Fin.ext (by show (r.val * 5 + k.val) % 5 = k.val; omega)

/-- The gradient's entry 0 at row r. -/
private theorem v32_apply (r : Fin 262144) :
    val_main_v32 (F := Ideal) x2 x3 x4 x5 x6 x7 (ix1 r) = (wts x3 x4 x5 x6 x7 x8).gradR (points x2 r) 0 := by
  rw [val_main_v32_apply, val_main_v31_apply]
  refine (congrArg _ ?_).trans (v30_apply x2 x3 x4 x5 x6 x7 x8 r 0)
  col_idx

/-- The gradient's entry 3 at row r. -/
private theorem v34_apply (r : Fin 262144) :
    val_main_v34 (F := Ideal) x2 x3 x4 x5 x6 x7 (ix1 r) = (wts x3 x4 x5 x6 x7 x8).gradR (points x2 r) 3 := by
  rw [val_main_v34_apply, val_main_v33_apply]
  refine (congrArg _ ?_).trans (v30_apply x2 x3 x4 x5 x6 x7 x8 r 3)
  col_idx

/-- The shifted point's gradient, entry 0, at row r. -/
private theorem v69_apply (r : Fin 262144) :
    val_main_v69 (F := Ideal) x2 x3 x4 x5 x6 x7 (ix1 r) = (wts x3 x4 x5 x6 x7 x8).gradR (shift (points x2 r)) 0 := by
  rw [val_main_v69_apply, val_main_v68_apply]
  refine (congrArg _ ?_).trans (v67_apply x2 x3 x4 x5 x6 x7 x8 r 0)
  col_idx

/-- The point's coordinate 0 at row r. -/
private theorem v74_apply (r : Fin 262144) : val_main_v74 (F := Ideal) x2 (ix1 r) = points x2 r 0 := by
  rw [val_main_v74_apply, val_main_v73_apply]
  refine (congrArg _ ?_).trans (v0_apply x2 r 0)
  col_idx

/-- The point's coordinate 2 at row r. -/
private theorem v76_apply (r : Fin 262144) : val_main_v76 (F := Ideal) x2 (ix1 r) = points x2 r 2 := by
  rw [val_main_v76_apply, val_main_v75_apply]
  refine (congrArg _ ?_).trans (v0_apply x2 r 2)
  col_idx

/-- The point's coordinate 4 at row r. -/
private theorem v78_apply (r : Fin 262144) : val_main_v78 (F := Ideal) x2 (ix1 r) = points x2 r 4 := by
  rw [val_main_v78_apply, val_main_v77_apply]
  refine (congrArg _ ?_).trans (v0_apply x2 r 4)
  col_idx

theorem v90_apply (r : Fin 262144) :
    val_main_v90 (F := Ideal) x2 x3 x4 x5 x6 x7 x8 (ix1 r) = (wts x3 x4 x5 x6 x7 x8).residR (points x2 r) := by
  rw [val_main_v90_apply, val_main_v88_apply, val_main_v89_apply, val_main_v85_apply, val_main_v87_apply,
    val_main_v84_apply, val_main_v86_apply, val_main_v83_apply, val_main_v72_apply, val_main_v81_apply,
    val_main_v82_apply, val_main_v70_apply, val_main_v71_apply, val_main_v79_apply, val_main_v80_apply,
    val_main_cst_6_apply, val_main_cst_7_apply]
  rw [v34_apply x2 x3 x4 x5 x6 x7 x8, v32_apply x2 x3 x4 x5 x6 x7 x8, v69_apply x2 x3 x4 x5 x6 x7 x8,
    v74_apply, v76_apply, v78_apply, v19_apply]
  rfl

/-- The reference's result is the quotient-by-quotient total. -/
theorem v98_eq :
    val_main_v98 (F := Ideal) x0 x1 x2 x3 x4 x5 x6 x7 x8 = fun _ => totalR (wts x3 x4 x5 x6 x7 x8) (points x2) (diffs x0 x1) := by
  funext i
  rw [val_main_v98_apply, val_main_v93_apply, val_main_v97_apply, val_main_v92_apply, val_main_v96_apply,
    sum_idx1, sum_cells]
  unfold totalR diffs
  simp only [val_main_v91_apply, v90_apply, val_main_v95_apply, val_main_v94_apply]
  rfl

end Cert.ReferenceIdeal.Tail

end
-- ==== Proof.lean ====
/-
  The certificate: a fused tanh network with its backward pass written out by the chain rule, a forward-difference second derivative, a
  Black-Scholes-type residual and a mean-squared-error term, summed block by block into one cell and divided once at the
  end, against the reference that differentiates the same network automatically and divides each whole sum.

  Over the extended reals both compute, at every one of the 262144 points, the same residual: the reference spells
  g·tanh'(z) as g·(1 − h) + (g·(1 − h))·h where the kernel spells it g·(1 − h·h), equal once the cotangent g is a real
  number, which it is layer by layer because the weights are finite; the residual's middle term differs only in the order
  of its factors; the block-by-block sum is the whole sum; and (A + B)/n = A/n + B/n for the two nonnegative sums.
  The finiteness precondition is used for the second and third layers' weights only.
-/
import proofs.«165616_j13804024889406_1_alg».proof.Defs
import proofs.«165616_j13804024889406_1_alg».proof.Proof.Gen.Kernel
import proofs.«165616_j13804024889406_1_alg».proof.Proof.Gen.Kernel.Frame
import proofs.«165616_j13804024889406_1_alg».proof.Proof.Gen.KernelIdeal
import proofs.«165616_j13804024889406_1_alg».proof.Proof.Gen.KernelIdeal.Frame
import proofs.«165616_j13804024889406_1_alg».proof.Proof.Gen.ReferenceIdeal
import proofs.«165616_j13804024889406_1_alg».proof.Proof.Gen.Pre_finite_inputs
import proofs.«165616_j13804024889406_1_alg».proof.Proof.Gen.ReferenceIdeal.Run
import proofs.«165616_j13804024889406_1_alg».proof.Proof.Gen.ReferenceIdeal.Read
import proofs.«165616_j13804024889406_1_alg».proof.Proof.Net
import proofs.«165616_j13804024889406_1_alg».proof.Proof.Bridge
import proofs.«165616_j13804024889406_1_alg».proof.Proof.PreReal
import proofs.«165616_j13804024889406_1_alg».proof.Proof.KBlocks
import proofs.«165616_j13804024889406_1_alg».proof.Proof.KRun
import proofs.«165616_j13804024889406_1_alg».proof.Proof.RTail
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at one number: the kernel's block-by-block total of the arguments' weights, points and differences;
    the reference's quotient-by-quotient total of the same, the arguments agreeing; and the two totals agree. -/
theorem algebraic : Cert.algebraic_KernelIdeal_ReferenceIdeal := by
  intro m ρ m' ρ' hpre hagree
  refine ⟨fun c => fun _ => Cert.Net.totalK (Cert.KernelIdeal.Blocks.argW m c) (Cert.KernelIdeal.Blocks.argX m c)
    (Cert.KernelIdeal.Blocks.argD m c), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, Cert.ReferenceIdeal.Tail.v98_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  have hreal := Cert.Proof.PreReal.weights_real m hpre c
  funext _
  exact (Cert.Net.total_eq (Cert.KernelIdeal.Blocks.argW m c) (Cert.KernelIdeal.Blocks.argX m c)
    (Cert.KernelIdeal.Blocks.argD m c) (fun _ _ => rfl) (fun _ _ => rfl)
    (fun k j => hreal.1 (ix2 k j)) (fun j => hreal.2 (ix2 j (0 : Fin 1)))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
